-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x384 : Shape := ⟨3, ![1, 512, 384]⟩
abbrev S128x384 : Shape := ⟨2, ![128, 384]⟩
abbrev S128 : Shape := ⟨1, ![128]⟩
abbrev S128x256 : Shape := ⟨2, ![128, 256]⟩
abbrev S_ : Shape := ⟨0, ![]⟩

class Facts : Prop where
  bcast_S_S1x512x384 : S_.BroadcastsInDim S1x512x384 (![] : Fin 0 → Fin S1x512x384.rank)
  reducesTo_S1x512x384_S_d0_1_2 : S1x512x384.ReducesTo [0, 1, 2] S_
  h_S_ : 0 < S_.numel
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg7 : FVec F S128 .f32) (main_arg8 : FVec F S128x256 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x384 .f32) (main_arg5 : FVec F S128 .f32) (main_arg6 : FVec F S128 .f32) (main_arg7 : FVec F S128 .f32) (main_arg8 : FVec F S128x256 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x384 .f32 := Host.absf main_arg4
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S1x512x384 .f32) (main_arg1 : FVec F S1x512x384 .f32) (main_arg2 : FVec F S128x384 .f32) (main_arg3 : FVec F S128 .f32) (main_arg4 : FVec F S128x384 .f32) (main_arg5 : FVec F S128 .f32) (main_arg6 : FVec F S128 .f32) (main_arg7 : FVec F S128 .f32) (main_arg8 : FVec F S128x256 .f32) (main_arg9 : FVec F S128 .f32) : IVec S_ 1 :=
  let main_v0 : FVec F S1x512x384 .f32 := Host.absf main_arg0
  let main_cst : FVec F S_ .f32 := constant S_ .f32 0x7F800000#32
  let main_v1 : FVec F S1x512x384 .f32 := broadcastInDim S1x512x384 ![] bcast_S_S1x512x384 main_cst
  let main_v2 : IVec S1x512x384 1 := cmpf .olt main_v0 main_v1
  let main_c : IVec S_ 1 := constantI S_ 1 1#1
  let main_v3 : IVec S_ 1 := (fun x v => Host.reduce IntOp.andi x v reducesTo_S1x512x384_S_d0_1_2 h_S_) main_v2 main_c
  let main_v4 : FVec F S1x512x384 .f32 := Host.absf main_arg1
  let main_cst_0 : FVec F S_ .f32 := constant S_ .f32 0x7F800000#32
  let main_v5 : FVec F S1x512x384 .f32 := broadcastInDim S1x512x384 ![] bcast_S_S1x512x384 main_cst_0
  let main_v6 : IVec S1x512x384 1 := cmpf .olt main_v4 main_v5
  let main_c_1 : IVec S_ 1 := constantI S_ 1 1#1
  let main_v7 : IVec S_ 1 := (fun x v => Host.reduce IntOp.andi x v reducesTo_S1x512x384_S_d0_1_2 h_S_) main_v6 main_c_1
  let main_v8 : IVec S_ 1 := andi main_v3 main_v7
  let main_v9 : FVec F S128x384 .f32 := Host.absf main_arg2
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S1x512x384 : Shape := ⟨3, ![1, 512, 384]⟩
abbrev S128x384 : Shape := ⟨2, ![128, 384]⟩
abbrev S128 : Shape := ⟨1, ![128]⟩
abbrev S128x256 : Shape := ⟨2, ![128, 256]⟩
abbrev S1x512x128 : Shape := ⟨3, ![1, 512, 128]⟩
abbrev S512x384 : Shape := ⟨2, ![512, 384]⟩
abbrev S384x128 : Shape := ⟨2, ![384, 128]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S128x128 : Shape := ⟨2, ![128, 128]⟩
abbrev S1x512x512x128 : Shape := ⟨4, ![1, 512, 512, 128]⟩
abbrev S1x128x128 : Shape := ⟨3, ![1, 128, 128]⟩
abbrev S1x128x128x128 : Shape := ⟨4, ![1, 128, 128, 128]⟩
abbrev S128x1x128 : Shape := ⟨3, ![128, 1, 128]⟩
abbrev S128x128x128 : Shape := ⟨3, ![128, 128, 128]⟩
abbrev S1x1x128 : Shape := ⟨3, ![1, 1, 128]⟩

abbrev nBuf : Space → Nat
  | .hbm => 13
  | .vmem => 19
  | .smem => 0
  | _ => 0

abbrev bufTy : (tb : Table) → Fin (tcTables nBuf tb) → BufTy
  | .hbm, ⟨0, _⟩ => ⟨S1x512x384, .f32⟩
  | .hbm, ⟨1, _⟩ => ⟨S1x512x384, .f32⟩
  | .hbm, ⟨2, _⟩ => ⟨S128x384, .f32⟩
  | .hbm, ⟨3, _⟩ => ⟨S128, .f32⟩
  | .hbm, ⟨4, _⟩ => ⟨S128x384, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S1x512x128, .f32⟩
  | .hbm, ⟨11, _⟩ => ⟨S1x512x128, .f32⟩
  | .hbm, ⟨12, _⟩ => ⟨S1x512x512x128, .f32⟩
  | .local _ .vmem, ⟨0, _⟩ => ⟨S1x512x384, .f32⟩
  | .local _ .vmem, ⟨1, _⟩ => ⟨S1x512x384, .f32⟩
  | .local _ .vmem, ⟨2, _⟩ => ⟨S128x384, .f32⟩
  | .local _ .vmem, ⟨3, _⟩ => ⟨S128, .f32⟩
  | .local _ .vmem, ⟨4, _⟩ => ⟨S128x384, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128x256, .f32⟩
  | .local _ .vmem, ⟨9, _⟩ => ⟨S128, .f32⟩
  | .local _ .vmem, ⟨10, _⟩ => ⟨S1x512x128, .f32⟩
  | .local _ .vmem, ⟨11, _⟩ => ⟨S1x512x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S128, .f32⟩
  | .local _ .vmem, ⟨17, _⟩ => ⟨S1x128x128x128, .f32⟩
  | .local _ .vmem, ⟨18, _⟩ => ⟨S1x128x128x128, .f32⟩
  | _, _ => ⟨S1x512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x512x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x128x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x512x384_S1x512x384_0_0_0 : ∀ a, (![0, 0, 0] : Fin 3 → Nat) a + S1x512x384.size a ≤ S1x512x384.size a
  h_S1x512x384 : 0 < S1x512x384.numel
  shapeCasts_S1x512x384_S512x384 : S1x512x384.ShapeCasts S512x384
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  transposes_S128x384_p1_0_S384x128 : S128x384.Transposes [1, 0] S384x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  reduces_S512x128_S512 : S512x128.Reduces [1] S512
  shapeCasts_S512_S512x1 : S512.ShapeCasts S512x1
  broadcasts_S512x1_S512x128 : S512x1.Broadcasts S512x128
  inb_S128x256_S128x256_0_0 : ∀ a, (![0, 0] : Fin 2 → Nat) a + S128x256.size a ≤ S128x256.size a
  h_S128x256 : 0 < S128x256.numel
  slices_S128x256_o0_0_S128x128 : S128x256.Slices ![0, 0] S128x128
  slices_S128x256_o0_128_S128x128 : S128x256.Slices ![0, 128] S128x128
  transposes_S128x128_p1_0_S128x128 : S128x128.Transposes [1, 0] S128x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S128x1x128 : S128x128.ShapeCasts S128x1x128
  shapeCasts_S128x1x128_S128x1x128 : S128x1x128.ShapeCasts S128x1x128
  broadcasts_S128x1x128_S128x128x128 : S128x1x128.Broadcasts S128x128x128
  shapeCasts_S128x128_S1x128x128 : S128x128.ShapeCasts S1x128x128
  shapeCasts_S1x128x128_S1x128x128 : S1x128x128.ShapeCasts S1x128x128
  broadcasts_S1x128x128_S128x128x128 : S1x128x128.Broadcasts S128x128x128
  shapeCasts_S128_S1x1x128 : S128.ShapeCasts S1x1x128
  broadcasts_S1x1x128_S128x128x128 : S1x1x128.Broadcasts S128x128x128
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  shapeCasts_S128x128x128_S1x128x128x128 : S128x128x128.ShapeCasts S1x128x128x128
  dot_S512x384_S384x128_S512x128_1_0_0_1_n_n_wf : DotDims.WF S512x384 S384x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512x384.size a ≤ S1x512x384.size a
  hwx0_0 : ∀ i : grid0.Coords, EltTy.bits .f32 = 32 ∨ (Rect.block (s := S1x512x384) S1x512x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512x384.size a ≤ S1x512x384.size a
  hwx0_1 : ∀ i : grid0.Coords, EltTy.bits .f32 = 32 ∨ (Rect.block (s := S1x512x384) S1x512x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S128x384.size a
  hwx0_2 : ∀ i : grid0.Coords, EltTy.bits .f32 = 32 ∨ (Rect.block (s := S128x384) S128x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x384.size a ≤ S128x384.size a
  hwx0_4 : ∀ i : grid0.Coords, EltTy.bits .f32 = 32 ∨ (Rect.block (s := S128x384) S128x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x256.size a ≤ S128x256.size a
  hwx0_8 : ∀ i : grid0.Coords, EltTy.bits .f32 = 32 ∨ (Rect.block (s := S128x256) S128x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512x128.size a ≤ S1x512x128.size a
  hwx0_10 : ∀ i : grid0.Coords, EltTy.bits .f32 = 32 ∨ (Rect.block (s := S1x512x128) S1x512x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512x128.size a ≤ S1x512x128.size a
  hwx0_11 : ∀ i : grid0.Coords, EltTy.bits .f32 = 32 ∨ (Rect.block (s := S1x512x128) S1x512x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128.size a ≤ S1x512x128.size a
  hwx1_0 : ∀ i : grid1.Coords, EltTy.bits .f32 = 32 ∨ (Rect.block (s := S1x512x128) S1x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S1x512x128.size a
  hwx1_1 : ∀ i : grid1.Coords, EltTy.bits .f32 = 32 ∨ (Rect.block (s := S1x512x128) S1x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x128x128.size a ≤ S1x512x512x128.size a
  hwx1_3 : ∀ i : grid1.Coords, EltTy.bits .f32 = 32 ∨ (Rect.block (s := S1x512x512x128) S1x128x128x128.size (cc1_transform_3 i) (hinb1_3 i)).WholeWords (EltTy.packing .f32)

variable [Facts₀]

def dot_S512x384_S384x128_S512x128_1_0_0_1_n_n : DotDims S512x384 S384x128 S512x128 where
  lhsContracting := [1]
  rhsContracting := [0]
  lhsNonContracting := [0]
  rhsNonContracting := [1]
  lhsBatch := []
  rhsBatch := []
  wf := dot_S512x384_S384x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S1x512x384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S1x512x128.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S1x512x128.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v0_0) S1x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128x128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x512x384 : Shape := ⟨3, ![1, 512, 384]⟩
abbrev S128x384 : Shape := ⟨2, ![128, 384]⟩
abbrev S128 : Shape := ⟨1, ![128]⟩
abbrev S128x256 : Shape := ⟨2, ![128, 256]⟩
abbrev S1x512x128 : Shape := ⟨3, ![1, 512, 128]⟩
abbrev S1x1x128 : Shape := ⟨3, ![1, 1, 128]⟩
abbrev S_ : Shape := ⟨0, ![]⟩
abbrev S1x512 : Shape := ⟨2, ![1, 512]⟩
abbrev S1x512x1 : Shape := ⟨3, ![1, 512, 1]⟩
abbrev S1x512x1x128 : Shape := ⟨4, ![1, 512, 1, 128]⟩
abbrev S1x512x512x128 : Shape := ⟨4, ![1, 512, 512, 128]⟩
abbrev S1x1x512x128 : Shape := ⟨4, ![1, 1, 512, 128]⟩
abbrev S1x512x512x256 : Shape := ⟨4, ![1, 512, 512, 256]⟩
abbrev S1x1x1x128 : Shape := ⟨4, ![1, 1, 1, 128]⟩

abbrev nBuf : Space → Nat
  | .hbm => 88
  | .vmem => 0
  | .smem => 0
  | _ => 0

abbrev bufTy : (tb : Table) → Fin (tcTables nBuf tb) → BufTy
  | .hbm, ⟨0, _⟩ => ⟨S1x512x384, .f32⟩
  | .hbm, ⟨1, _⟩ => ⟨S1x512x384, .f32⟩
  | .hbm, ⟨2, _⟩ => ⟨S128x384, .f32⟩
  | .hbm, ⟨3, _⟩ => ⟨S128, .f32⟩
  | .hbm, ⟨4, _⟩ => ⟨S128x384, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S1x512x128, .f32⟩
  | .hbm, ⟨11, _⟩ => ⟨S1x1x128, .f32⟩
  | .hbm, ⟨12, _⟩ => ⟨S1x512x128, .f32⟩
  | .hbm, ⟨13, _⟩ => ⟨S1x512x128, .f32⟩
  | .hbm, ⟨14, _⟩ => ⟨S_, .f32⟩
  | .hbm, ⟨15, _⟩ => ⟨S1x512, .f32⟩
  | .hbm, ⟨16, _⟩ => ⟨S1x512x1, .f32⟩
  | .hbm, ⟨17, _⟩ => ⟨S_, .f32⟩
  | .hbm, ⟨18, _⟩ => ⟨S1x512x1, .f32⟩
  | .hbm, ⟨19, _⟩ => ⟨S1x512x1, .f32⟩
  | .hbm, ⟨20, _⟩ => ⟨S1x512x128, .f32⟩
  | .hbm, ⟨21, _⟩ => ⟨S1x512x128, .f32⟩
  | .hbm, ⟨22, _⟩ => ⟨S1x512x128, .f32⟩
  | .hbm, ⟨23, _⟩ => ⟨S_, .f32⟩
  | .hbm, ⟨24, _⟩ => ⟨S1x512, .f32⟩
  | .hbm, ⟨25, _⟩ => ⟨S1x512x1, .f32⟩
  | .hbm, ⟨26, _⟩ => ⟨S_, .f32⟩
  | .hbm, ⟨27, _⟩ => ⟨S1x512x1, .f32⟩
  | .hbm, ⟨28, _⟩ => ⟨S1x512x1, .f32⟩
  | .hbm, ⟨29, _⟩ => ⟨S1x512x128, .f32⟩
  | .hbm, ⟨30, _⟩ => ⟨S1x512x128, .f32⟩
  | .hbm, ⟨31, _⟩ => ⟨S_, .f32⟩
  | .hbm, ⟨32, _⟩ => ⟨S1x512x1, .f32⟩
  | .hbm, ⟨33, _⟩ => ⟨S1x512x1, .f32⟩
  | .hbm, ⟨34, _⟩ => ⟨S1x512x1, .f32⟩
  | .hbm, ⟨35, _⟩ => ⟨S1x512x128, .f32⟩
  | .hbm, ⟨36, _⟩ => ⟨S1x512x128, .f32⟩
  | .hbm, ⟨37, _⟩ => ⟨S1x1x128, .f32⟩
  | .hbm, ⟨38, _⟩ => ⟨S1x512x128, .f32⟩
  | .hbm, ⟨39, _⟩ => ⟨S1x512x128, .f32⟩
  | .hbm, ⟨40, _⟩ => ⟨S1x1x128, .f32⟩
  | .hbm, ⟨41, _⟩ => ⟨S1x512x128, .f32⟩
  | .hbm, ⟨42, _⟩ => ⟨S1x512x128, .f32⟩
  | .hbm, ⟨43, _⟩ => ⟨S1x512x128, .f32⟩
  | .hbm, ⟨44, _⟩ => ⟨S1x1x128, .f32⟩
  | .hbm, ⟨45, _⟩ => ⟨S1x512x128, .f32⟩
  | .hbm, ⟨46, _⟩ => ⟨S1x512x128, .f32⟩
  | .hbm, ⟨47, _⟩ => ⟨S_, .f32⟩
  | .hbm, ⟨48, _⟩ => ⟨S1x512, .f32⟩
  | .hbm, ⟨49, _⟩ => ⟨S1x512x1, .f32⟩
  | .hbm, ⟨50, _⟩ => ⟨S_, .f32⟩
  | .hbm, ⟨51, _⟩ => ⟨S1x512x1, .f32⟩
  | .hbm, ⟨52, _⟩ => ⟨S1x512x1, .f32⟩
  | .hbm, ⟨53, _⟩ => ⟨S1x512x128, .f32⟩
  | .hbm, ⟨54, _⟩ => ⟨S1x512x128, .f32⟩
  | .hbm, ⟨55, _⟩ => ⟨S1x512x128, .f32⟩
  | .hbm, ⟨56, _⟩ => ⟨S_, .f32⟩
  | .hbm, ⟨57, _⟩ => ⟨S1x512, .f32⟩
  | .hbm, ⟨58, _⟩ => ⟨S1x512x1, .f32⟩
  | .hbm, ⟨59, _⟩ => ⟨S_, .f32⟩
  | .hbm, ⟨60, _⟩ => ⟨S1x512x1, .f32⟩
  | .hbm, ⟨61, _⟩ => ⟨S1x512x1, .f32⟩
  | .hbm, ⟨62, _⟩ => ⟨S1x512x128, .f32⟩
  | .hbm, ⟨63, _⟩ => ⟨S1x512x128, .f32⟩
  | .hbm, ⟨64, _⟩ => ⟨S_, .f32⟩
  | .hbm, ⟨65, _⟩ => ⟨S1x512x1, .f32⟩
  | .hbm, ⟨66, _⟩ => ⟨S1x512x1, .f32⟩
  | .hbm, ⟨67, _⟩ => ⟨S1x512x1, .f32⟩
  | .hbm, ⟨68, _⟩ => ⟨S1x512x128, .f32⟩
  | .hbm, ⟨69, _⟩ => ⟨S1x512x128, .f32⟩
  | .hbm, ⟨70, _⟩ => ⟨S1x1x128, .f32⟩
  | .hbm, ⟨71, _⟩ => ⟨S1x512x128, .f32⟩
  | .hbm, ⟨72, _⟩ => ⟨S1x512x128, .f32⟩
  | .hbm, ⟨73, _⟩ => ⟨S1x1x128, .f32⟩
  | .hbm, ⟨74, _⟩ => ⟨S1x512x128, .f32⟩
  | .hbm, ⟨75, _⟩ => ⟨S1x512x128, .f32⟩
  | .hbm, ⟨76, _⟩ => ⟨S1x512x1x128, .f32⟩
  | .hbm, ⟨77, _⟩ => ⟨S1x512x512x128, .f32⟩
  | .hbm, ⟨78, _⟩ => ⟨S1x1x512x128, .f32⟩
  | .hbm, ⟨79, _⟩ => ⟨S1x512x512x128, .f32⟩
  | .hbm, ⟨80, _⟩ => ⟨S1x512x512x256, .f32⟩
  | .hbm, ⟨81, _⟩ => ⟨S_, .f32⟩
  | .hbm, ⟨82, _⟩ => ⟨S1x512x512x256, .f32⟩
  | .hbm, ⟨83, _⟩ => ⟨S1x512x512x256, .f32⟩
  | .hbm, ⟨84, _⟩ => ⟨S1x512x512x128, .f32⟩
  | .hbm, ⟨85, _⟩ => ⟨S1x1x1x128, .f32⟩
  | .hbm, ⟨86, _⟩ => ⟨S1x512x512x128, .f32⟩
  | .hbm, ⟨87, _⟩ => ⟨S1x512x512x128, .f32⟩
  | _, _ => ⟨S1x512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x512x128_0_1_2 : S1x1x128.BroadcastsInDim S1x512x128 (![0, 1, 2] : Fin 3 → Fin S1x512x128.rank)
  reducesTo_S1x512x128_S1x512_d2 : S1x512x128.ReducesTo [2] S1x512
  h_S_ : 0 < S_.numel
  bcast_S1x512_S1x512x1_0_1 : S1x512.BroadcastsInDim S1x512x1 (![0, 1] : Fin 2 → Fin S1x512x1.rank)
  bcast_S_S1x512x1 : S_.BroadcastsInDim S1x512x1 (![] : Fin 0 → Fin S1x512x1.rank)
  bcast_S1x512x1_S1x512x128_0_1_2 : S1x512x1.BroadcastsInDim S1x512x128 (![0, 1, 2] : Fin 3 → Fin S1x512x128.rank)
  bcast_S1x512x128_S1x512x1x128_0_1_3 : S1x512x128.BroadcastsInDim S1x512x1x128 (![0, 1, 3] : Fin 3 → Fin S1x512x1x128.rank)
  bcast_S1x512x1x128_S1x512x512x128_0_1_2_3 : S1x512x1x128.BroadcastsInDim S1x512x512x128 (![0, 1, 2, 3] : Fin 4 → Fin S1x512x512x128.rank)
  bcast_S1x512x128_S1x1x512x128_0_2_3 : S1x512x128.BroadcastsInDim S1x1x512x128 (![0, 2, 3] : Fin 3 → Fin S1x1x512x128.rank)
  bcast_S1x1x512x128_S1x512x512x128_0_1_2_3 : S1x1x512x128.BroadcastsInDim S1x512x512x128 (![0, 1, 2, 3] : Fin 4 → Fin S1x512x512x128.rank)
  concatenates_S1x512x512x128_S1x512x512x128_S1x512x512x256_d3 : Shape.Concatenates [S1x512x512x128, S1x512x512x128] S1x512x512x256 3
  bcast_S_S1x512x512x256 : S_.BroadcastsInDim S1x512x512x256 (![] : Fin 0 → Fin S1x512x512x256.rank)
  bcast_S128_S1x1x1x128_3 : S128.BroadcastsInDim S1x1x1x128 (![3] : Fin 1 → Fin S1x1x1x128.rank)
  bcast_S1x1x1x128_S1x512x512x128_0_1_2_3 : S1x1x1x128.BroadcastsInDim S1x512x512x128 (![0, 1, 2, 3] : Fin 4 → Fin S1x512x512x128.rank)
  dot_S1x512x384_S128x384_S1x512x128_2_1_01_0_n_n_wf : DotDims.WF S1x512x384 S128x384 S1x512x128 [2] [1] [0, 1] [0] [] []
  dot_S1x512x512x256_S128x256_S1x512x512x128_3_1_012_0_n_n_wf : DotDims.WF S1x512x512x256 S128x256 S1x512x512x128 [3] [1] [0, 1, 2] [0] [] []

variable [Facts₀]

def dot_S1x512x384_S128x384_S1x512x128_2_1_01_0_n_n : DotDims S1x512x384 S128x384 S1x512x128 where
  lhsContracting := [2]
  rhsContracting := [1]
  lhsNonContracting := [0, 1]
  rhsNonContracting := [0]
  lhsBatch := []
  rhsBatch := []
  wf := dot_S1x512x384_S128x384_S1x512x128_2_1_01_0_n_n_wf
def dot_S1x512x512x256_S128x256_S1x512x512x128_3_1_012_0_n_n : DotDims S1x512x512x256 S128x256 S1x512x512x128 where
  lhsContracting := [3]
  rhsContracting := [1]
  lhsNonContracting := [0, 1, 2]
  rhsNonContracting := [0]
  lhsBatch := []
  rhsBatch := []
  wf := dot_S1x512x512x256_S128x256_S1x512x512x128_3_1_012_0_n_n_wf

class Facts : Prop extends Facts₀ where

variable [Facts]
-- ==== Proof.R0Value.lean ====
/-
  The first region has ONE grid point and every window's block is its whole array (block index zero on
  every axis). So what the region leaves in each output array is the body's result on the whole input arrays:
  an element of a block sits in the array at its own coordinates, the one point's write-back covers the
  array, and the array after the region is the body's term of the arrays as the region found them.
-/
import proofs.«142635_j89464168775793_1_alg».proof.Proof.Gen.KernelIdeal.Frame
import Idealize.ShloMosaic.Lib.Pipeline.Value
import Idealize.ShloMosaic.PureOps.Ideal

set_option maxRecDepth 16384

noncomputable section

namespace Cert.KernelIdeal.R0Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- Every window of the region has block index zero on every axis at the region's one point. -/
theorem index_zero : ∀ (t : Fin cfg0.N) (w : Fin cfg0.W) (a : Fin (cfg0.win w).shape.rank), (cfg0.win w).index t a = 0 := by
  decide +kernel

/-- An element of window `w`'s block sits in the array at its own coordinates: the block index is zero on every axis. -/
local macro "whole_block " w:num : tactic =>
  `(tactic| (funext y; refine congrArg _ (funext fun a => Fin.ext ?_);
             exact (cfg0.win $w).rect_emb_val_of_index_zero _ a (index_zero _ $w a) y))

/-! Each input window's block, at the one point, is its whole array. -/
theorem blk0 (c : Dev nD) (t : Fin cfg0.N) : iblk0 V c 0 t = V c main_arg0 := by
  show (fun y => V c main_arg0 (((cfg0.win 0).blk t).view.emb y)) = V c main_arg0; whole_block 0
theorem blk1 (c : Dev nD) (t : Fin cfg0.N) : iblk0 V c 1 t = V c main_arg1 := by
  show (fun y => V c main_arg1 (((cfg0.win 1).blk t).view.emb y)) = V c main_arg1; whole_block 1
theorem blk2 (c : Dev nD) (t : Fin cfg0.N) : iblk0 V c 2 t = V c main_arg2 := by
  show (fun y => V c main_arg2 (((cfg0.win 2).blk t).view.emb y)) = V c main_arg2; whole_block 2
theorem blk3 (c : Dev nD) (t : Fin cfg0.N) : iblk0 V c 3 t = V c main_arg3 := by
  show (fun y => V c main_arg3 (((cfg0.win 3).blk t).view.emb y)) = V c main_arg3; whole_block 3
theorem blk4 (c : Dev nD) (t : Fin cfg0.N) : iblk0 V c 4 t = V c main_arg4 := by
  show (fun y => V c main_arg4 (((cfg0.win 4).blk t).view.emb y)) = V c main_arg4; whole_block 4
theorem blk5 (c : Dev nD) (t : Fin cfg0.N) : iblk0 V c 5 t = V c main_arg5 := by
  show (fun y => V c main_arg5 (((cfg0.win 5).blk t).view.emb y)) = V c main_arg5; whole_block 5
theorem blk6 (c : Dev nD) (t : Fin cfg0.N) : iblk0 V c 6 t = V c main_arg6 := by
  show (fun y => V c main_arg6 (((cfg0.win 6).blk t).view.emb y)) = V c main_arg6; whole_block 6
theorem blk7 (c : Dev nD) (t : Fin cfg0.N) : iblk0 V c 7 t = V c main_arg7 := by
  show (fun y => V c main_arg7 (((cfg0.win 7).blk t).view.emb y)) = V c main_arg7; whole_block 7
theorem blk8 (c : Dev nD) (t : Fin cfg0.N) : iblk0 V c 8 t = V c main_arg8 := by
  show (fun y => V c main_arg8 (((cfg0.win 8).blk t).view.emb y)) = V c main_arg8; whole_block 8
theorem blk9 (c : Dev nD) (t : Fin cfg0.N) : iblk0 V c 9 t = V c main_arg9 := by
  show (fun y => V c main_arg9 (((cfg0.win 9).blk t).view.emb y)) = V c main_arg9; whole_block 9

/-- The body's two results on the whole input arrays as the region found them. -/
abbrev res10 (c : Dev nD) : Vec Ideal S1x512x128 .f32 :=
  out0_10 (V c main_arg0) (V c main_arg1) (V c main_arg2) (V c main_arg3) (V c main_arg4) (V c main_arg5) (V c main_arg6) (V c main_arg7) (V c main_arg8) (V c main_arg9)
abbrev res11 (c : Dev nD) : Vec Ideal S1x512x128 .f32 :=
  out0_11 (V c main_arg0) (V c main_arg1) (V c main_arg2) (V c main_arg3) (V c main_arg4) (V c main_arg5) (V c main_arg6) (V c main_arg7) (V c main_arg8) (V c main_arg9)

/-- What the body leaves in the two output buffers, at the one point, is its term of the whole input arrays. -/
theorem after10 (c : Dev nD) (t : Fin cfg0.N) : (dat0 V c).after 10 t = res10 V c := by
  rewrite [after0_10, blk0 V c t, blk1 V c t, blk2 V c t, blk3 V c t, blk4 V c t, blk5 V c t, blk6 V c t, blk7 V c t, blk8 V c t, blk9 V c t]
  exact Eq.refl _
theorem after11 (c : Dev nD) (t : Fin cfg0.N) : (dat0 V c).after 11 t = res11 V c := by
  rewrite [after0_11, blk0 V c t, blk1 V c t, blk2 V c t, blk3 V c t, blk4 V c t, blk5 V c t, blk6 V c t, blk7 V c t, blk8 V c t, blk9 V c t]
  exact Eq.refl _

/-- Any contents of an output window's buffer, written back at the one point, are those contents read through the point's block. -/
theorem cut_eq_read10 (G : Vec Ideal S1x512x128 .f32) (t : Fin cfg0.N) :
    (cfg0.win 10).cut (grid0.coords t) G = ((cfg0.win 10).blk t).view.read (Elt Ideal) G := by
  show G = fun y => G (((cfg0.win 10).blk t).view.emb y)
  exact (by whole_block 10 : (fun y => G (((cfg0.win 10).blk t).view.emb y)) = G).symm
theorem cut_eq_read11 (G : Vec Ideal S1x512x128 .f32) (t : Fin cfg0.N) :
    (cfg0.win 11).cut (grid0.coords t) G = ((cfg0.win 11).blk t).view.read (Elt Ideal) G := by
  show G = fun y => G (((cfg0.win 11).blk t).view.emb y)
  exact (by whole_block 11 : (fun y => G (((cfg0.win 11).blk t).view.emb y)) = G).symm

/-- What the one point writes back through each output window. -/
theorem flushed10 (c : Dev nD) (t : Fin cfg0.N) :
    (dat0 V c).flushed 10 t = ((cfg0.win 10).blk t).view.read (Elt Ideal) (res10 V c) := by
  show (cfg0.win 10).cut (grid0.coords t) ((dat0 V c).after 10 t) = _
  rewrite [after10 V c t]
  exact cut_eq_read10 _ t
theorem flushed11 (c : Dev nD) (t : Fin cfg0.N) :
    (dat0 V c).flushed 11 t = ((cfg0.win 11).blk t).view.read (Elt Ideal) (res11 V c) := by
  show (cfg0.win 11).cut (grid0.coords t) ((dat0 V c).after 11 t) = _
  rewrite [after11 V c t]
  exact cut_eq_read11 _ t

/-- An index of the array is in the point's block iff each coordinate is in the block's range on its axis. -/
theorem mem_blk10 (t : Fin cfg0.N) (i : S1x512x128.Idx) :
    i ∈ ((cfg0.win 10).blk t).view.set ↔ ∀ a : Fin 3, win0_10.index t a * S1x512x128.size a ≤ (i a).val ∧ (i a).val < win0_10.index t a * S1x512x128.size a + S1x512x128.size a := by
  show i ∈ ((View.whole main_v0_0).slice (win0_10.rect t)).set ↔ _
  rw [View.set_slice_whole, Rect.mem_set_unit]
  exact Iff.rfl
theorem mem_blk11 (t : Fin cfg0.N) (i : S1x512x128.Idx) :
    i ∈ ((cfg0.win 11).blk t).view.set ↔ ∀ a : Fin 3, win0_11.index t a * S1x512x128.size a ≤ (i a).val ∧ (i a).val < win0_11.index t a * S1x512x128.size a + S1x512x128.size a := by
  show i ∈ ((View.whole main_v0_1).slice (win0_11.rect t)).set ↔ _
  rw [View.set_slice_whole, Rect.mem_set_unit]
  exact Iff.rfl

/-- The one point's block is the whole array. -/
theorem cover10 (i : S1x512x128.Idx) : ∃ t : Fin cfg0.N, (cfg0.win 10).flush t = true ∧ i ∈ ((cfg0.win 10).blk t).view.set := by
  refine ⟨⟨0, by decide⟩, flush0_10 _, ?_⟩
  rw [mem_blk10]
  intro a
  have hz : win0_10.index ⟨0, by decide⟩ a = 0 := index_zero ⟨0, by decide⟩ 10 a
  rw [hz]
  have hlt : (i a).val < S1x512x128.size a := (i a).isLt
  omega
theorem cover11 (i : S1x512x128.Idx) : ∃ t : Fin cfg0.N, (cfg0.win 11).flush t = true ∧ i ∈ ((cfg0.win 11).blk t).view.set := by
  refine ⟨⟨0, by decide⟩, flush0_11 _, ?_⟩
  rw [mem_blk11]
  intro a
  have hz : win0_11.index ⟨0, by decide⟩ a = 0 := index_zero ⟨0, by decide⟩ 11 a
  rw [hz]
  have hlt : (i a).val < S1x512x128.size a := (i a).isLt
  omega

/-- THE TWO ARRAYS after the region: the body's terms of the arrays as the region found them. -/
theorem final10 (c : Dev nD) : (dat0 V c).arrAt 10 cfg0.N = res10 V c :=
  (dat0 V c).arrAt_eq_of_cover 10 _ (fun t _ => flushed10 V c t) cover10
theorem final11 (c : Dev nD) : (dat0 V c).arrAt 11 cfg0.N = res11 V c :=
  (dat0 V c).arrAt_eq_of_cover 11 _ (fun t _ => flushed11 V c t) cover11

end Cert.KernelIdeal.R0Value

end
-- ==== Proof.Spec.lean ====
/-
  The mathematics both programs compute, as functions on the extended reals, index by index.

  From activations x[1,512,384], weights W[128,384] and a bias b[128]:
    pre n h  = (sum over s of x[0,n,s] * W[h,s]) + b[h]              -- projection plus bias
    mean n   = (sum over h of pre n h) / 128
    dev n h  = pre n h - mean n
    var n    = (sum over h of dev n h * dev n h) / 128
    ln n h   = dev n h * rsqrt (var n + eps) * gamma[h] + beta[h]    -- layer normalisation

  One side contracts the two normalised halves separately against the two column halves of
  Wout[128,256], adds them, scales by 2^-18 and adds the bias (`outSplit`); the other side joins the
  halves along the contracted axis, divides every entry by 2^18, contracts once against the whole of Wout
  and adds the bias (`outJoined`). `outSplit_eq_outJoined` says these agree on every extended real:
  division by the real 2^18 is the product with 2^-18, a product with a nonnegative real distributes over
  sums of extended reals, and a sum over 256 splits into its two halves of 128.
-/
import Idealize.ShloMosaic.PureOps.Ideal
import Idealize.ShloMosaic.PureOps.Ideal.Laws
import Idealize.ShloMosaic.Lib.ValueIdx
import Mathlib.Algebra.BigOperators.Fin

noncomputable section

namespace Cert.Spec

open Idealize.ShloMosaic Idealize.ShloMosaic.ValueIdx

/-- The array types, by their literal shapes. -/
abbrev Act := (⟨3, ![1, 512, 384]⟩ : Shape).Idx → EReal
abbrev Wgt := (⟨2, ![128, 384]⟩ : Shape).Idx → EReal
abbrev Vec128 := (⟨1, ![128]⟩ : Shape).Idx → EReal
abbrev WOut := (⟨2, ![128, 256]⟩ : Shape).Idx → EReal
abbrev Proj := (⟨3, ![1, 512, 128]⟩ : Shape).Idx → EReal
abbrev Out := (⟨4, ![1, 512, 512, 128]⟩ : Shape).Idx → EReal
/-- A normalised half: rows by features. -/
abbrev Half := Fin 512 → Fin 128 → EReal

/-- 128.0, the divisor of both means. -/
def c128 : EReal := Ideal.ofBits .f32 0x43000000#32
/-- The variance offset (the f32 nearest 1e-5; the same word on both sides, never evaluated). -/
def eps : EReal := Ideal.ofBits .f32 0x3727C5AC#32
/-- 2^-18, the scale one side multiplies by. -/
def scaleMul : EReal := Ideal.ofBits .f32 0x36800000#32
/-- 2^18, the divisor the other side divides by. -/
def scaleDiv : EReal := Ideal.ofBits .f32 0x48800000#32

def pre (x : Act) (W : Wgt) (b : Vec128) (n : Fin 512) (h : Fin 128) : EReal :=
  (∑ s : Fin 384, x (ix3 0 n s) * W (ix2 h s)) + b (ix1 h)

def mean (x : Act) (W : Wgt) (b : Vec128) (n : Fin 512) : EReal :=
  Ideal.div (∑ h : Fin 128, pre x W b n h) c128

def dev (x : Act) (W : Wgt) (b : Vec128) (n : Fin 512) (h : Fin 128) : EReal :=
  pre x W b n h - mean x W b n

def var (x : Act) (W : Wgt) (b : Vec128) (n : Fin 512) : EReal :=
  Ideal.div (∑ h : Fin 128, dev x W b n h * dev x W b n h) c128

/-- Layer normalisation of the projected rows. -/
def ln (x : Act) (W : Wgt) (b g be : Vec128) : Half := fun n h =>
  dev x W b n h * Ideal.rsqrt (var x W b n + eps) * g (ix1 h) + be (ix1 h)

/-- A half contracted against the low columns of Wout: entry (0, n, z) is the sum over h of L n h * Wout[z, h]. -/
def projLow (L : Half) (Wo : WOut) : Proj := fun i =>
  ∑ h : Fin 128, L ⟨(i 1).val, (i 1).isLt⟩ h * Wo (ix2 ⟨(i 2).val, (i 2).isLt⟩ ⟨h.val, by omega⟩)

/-- A half contracted against the high columns of Wout: entry (0, m, z) is the sum over h of L m h * Wout[z, 128 + h]. -/
def projHigh (L : Half) (Wo : WOut) : Proj := fun i =>
  ∑ h : Fin 128, L ⟨(i 1).val, (i 1).isLt⟩ h * Wo (ix2 ⟨(i 2).val, (i 2).isLt⟩ ⟨128 + h.val, by omega⟩)

/-- Entry (0, n, m, z): (pa[0,n,z] + pb[0,m,z]) * 2^-18 + bias[z]. -/
def outSplit (pa pb : Proj) (bo : Vec128) : Out := fun i =>
  (pa (ix3 0 ⟨(i 1).val, (i 1).isLt⟩ ⟨(i 3).val, (i 3).isLt⟩) + pb (ix3 0 ⟨(i 2).val, (i 2).isLt⟩ ⟨(i 3).val, (i 3).isLt⟩)) * scaleMul
    + bo (ix1 ⟨(i 3).val, (i 3).isLt⟩)

/-- The two halves joined along the feature axis: feature k < 128 of row n of the first, else feature k - 128 of row m of the second. -/
def joined (La Lb : Half) (n m : Fin 512) (k : Fin 256) : EReal :=
  if h : k.val < 128 then La n ⟨k.val, h⟩ else Lb m ⟨k.val - 128, by omega⟩

/-- Entry (0, n, m, z): (sum over k < 256 of (joined n m k / 2^18) * Wout[z, k]) + bias[z]. -/
def outJoined (La Lb : Half) (Wo : WOut) (bo : Vec128) : Out := fun i =>
  (∑ k : Fin 256, Ideal.div (joined La Lb ⟨(i 1).val, (i 1).isLt⟩ ⟨(i 2).val, (i 2).isLt⟩ k) scaleDiv * Wo (ix2 ⟨(i 3).val, (i 3).isLt⟩ k))
    + bo (ix1 ⟨(i 3).val, (i 3).isLt⟩)

/-- The word 0x36800000 denotes the real 2^-18. -/
theorem scaleMul_eq : scaleMul = (((1 / 262144 : ℝ)) : EReal) := by
  unfold scaleMul
  simp [Ideal.ofBits, Ideal.ieee, -EReal.coe_mul]; norm_num

/-- The word 0x48800000 denotes the real 2^18. -/
theorem scaleDiv_eq : scaleDiv = ((262144 : ℝ) : EReal) := by
  unfold scaleDiv
  simp [Ideal.ofBits, Ideal.ieee, -EReal.coe_mul]; norm_num

/-- A product with a nonnegative real on the right distributes over a finite sum of extended reals. -/
theorem sum_mul_coe {ι : Type*} (s : Finset ι) (f : ι → EReal) {c : ℝ} (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- The two arrangements agree, whatever the halves hold. -/
theorem outSplit_eq_outJoined (La Lb : Half) (Wo : WOut) (bo : Vec128) :
    outSplit (projLow La Wo) (projHigh Lb Wo) bo = outJoined La Lb Wo bo := by
  funext i
  unfold outSplit outJoined projLow projHigh
  refine congrArg (· + bo (ix1 ⟨(i 3).val, (i 3).isLt⟩)) ?_
  rw [scaleMul_eq, scaleDiv_eq]
  have hc : (0 : ℝ) ≤ 1 / 262144 := by norm_num
  -- the right side: every summand is (joined * W) * 2^-18
  have hR : ∀ k : Fin 256,
      Ideal.div (joined La Lb ⟨(i 1).val, (i 1).isLt⟩ ⟨(i 2).val, (i 2).isLt⟩ k) ((262144 : ℝ) : EReal) * Wo (ix2 ⟨(i 3).val, (i 3).isLt⟩ k)
        = (joined La Lb ⟨(i 1).val, (i 1).isLt⟩ ⟨(i 2).val, (i 2).isLt⟩ k * Wo (ix2 ⟨(i 3).val, (i 3).isLt⟩ k)) * (((1 / 262144 : ℝ)) : EReal) := by
    intro k
    rw [Ideal.div_coe (by norm_num : (262144 : ℝ) ≠ 0), mul_assoc, mul_assoc, mul_comm (((1 / 262144 : ℝ)) : EReal)]
  rw [Finset.sum_congr rfl (fun k _ => hR k), ← sum_mul_coe _ _ hc]
  refine congrArg (· * (((1 / 262144 : ℝ)) : EReal)) ?_
  -- the sum over 256 is the two sums over 128
  rw [show (∑ k : Fin 256, joined La Lb ⟨(i 1).val, (i 1).isLt⟩ ⟨(i 2).val, (i 2).isLt⟩ k * Wo (ix2 ⟨(i 3).val, (i 3).isLt⟩ k))
      = ∑ k : Fin (128 + 128), joined La Lb ⟨(i 1).val, (i 1).isLt⟩ ⟨(i 2).val, (i 2).isLt⟩ k * Wo (ix2 ⟨(i 3).val, (i 3).isLt⟩ k) from rfl,
    Fin.sum_univ_add]
  refine congrArg₂ (· + ·) (Finset.sum_congr rfl fun h _ => ?_) (Finset.sum_congr rfl fun h _ => ?_)
  · have hlt : (Fin.castAdd 128 h : Fin (128 + 128)).val < 128 := h.isLt
    unfold joined
    rw [dif_pos hlt]
    rfl
  · have hge : ¬ (Fin.natAdd 128 h : Fin (128 + 128)).val < 128 := by simp [Fin.natAdd]
    unfold joined
    rw [dif_neg hge]
    have e : (⟨(Fin.natAdd 128 h : Fin (128 + 128)).val - 128, by simp [Fin.natAdd]⟩ : Fin 128) = h := by
      apply Fin.ext; simp [Fin.natAdd]
    rw [e]
    rfl

end Cert.Spec

end
-- ==== Proof.R0PayLow.lean ====
/-
  The first output of the projection and layer-normalisation launch, read index by index.

  From activations x[1,512,384], a weight W[128,384], a bias b[128], a scale g[128], an offset be[128] and
  Wout[128,256], the launch leaves in its first output window, at (0, n, z),
      sum over h of ln n h * Wout[z, h]      (h below 128: the low columns of Wout),
  where ln is the layer normalisation of the projected rows:
      pre n h = (sum over s of x[0,n,s] * W[h,s]) + b[h],   mean n = (sum over h of pre n h) / 128,
      dev n h = pre n h - mean n,   var n = (sum over h of dev n h ^ 2) / 128,
      ln n h = dev n h * rsqrt (var n + eps) * g[h] + be[h].
  Every step below is an index equation: a layout operation read at an index, a lane sum as a finite sum,
  a matrix product as the sum over its one contracted axis. No algebraic law is used.
-/
import proofs.«142635_j89464168775793_1_alg».proof.Proof.Gen.KernelIdeal.Frame
import proofs.«142635_j89464168775793_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R0PayLow
open Cert.KernelIdeal Cert.KernelIdeal.Gen
open Idealize.ShloMosaic Idealize.ShloMosaic.ValueIdx Idealize.SL.Sem

/-! ## Two column layouts read at an index -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane sum of a [512,128] array at row n: the sum over the 128 lanes. -/
theorem rowsum_apply (v : FVec Ideal S512x128 .f32) (hφ : FKind.Formats .f32)
    (hacc : (0x00000000#32 : BitVec FTy.f32.bits) = FKind.add.neutral .f32 hφ) (n : Fin 512) :
    multiReduction (F := Ideal) .add [1] S512 v 0x00000000#32 reduces_S512x128_S512 hφ hacc (ix1 n) = ∑ h : Fin 128, v (ix2 n h) := by
  refine (Ideal.multiReduction_add_single v 0x00000000#32 reduces_S512x128_S512 hφ hacc (ix1 n)).trans ?_
  show ∑ k : Fin 128, v (reduces_S512x128_S512.lift (ix1 n) k) = ∑ h : Fin 128, v (ix2 n h)
  refine Finset.sum_congr rfl fun k _ => congrArg v (funext fun a => Fin.ext ?_)
  match a with
  | ⟨0, _⟩ => rfl
  | ⟨1, _⟩ => rfl

/-! ## The projection: a [512,384] by [384,128] product, one contracted axis -/

/-- The left operand's row coordinate is the result's row. -/
theorem lhs_proj_0 (i : S512x128.Idx) (q : dot_S512x384_S384x128_S512x128_1_0_0_1_n_n.contr.Idx) :
    (dot_S512x384_S384x128_S512x128_1_0_0_1_n_n.lhsIdx i q 0).val = (i 0).val := by
  unfold DotDims.lhsIdx
  rw [dif_neg (show ¬(0 : Fin S512x384.rank) ∈ dot_S512x384_S384x128_S512x128_1_0_0_1_n_n.lhsBatch by decide), dif_pos (show (0 : Fin S512x384.rank) ∈ dot_S512x384_S384x128_S512x128_1_0_0_1_n_n.lhsNonContracting by decide)]
  rfl
/-- The left operand's column coordinate is the contraction position. -/
theorem lhs_proj_1 (i : S512x128.Idx) (q : dot_S512x384_S384x128_S512x128_1_0_0_1_n_n.contr.Idx) :
    (dot_S512x384_S384x128_S512x128_1_0_0_1_n_n.lhsIdx i q 1).val = (q ⟨0, by decide⟩).val :=
  dot_S512x384_S384x128_S512x128_1_0_0_1_n_n.lhsIdx_val_of_single rfl i q
/-- The right operand's row coordinate is the contraction position. -/
theorem rhs_proj_0 (i : S512x128.Idx) (q : dot_S512x384_S384x128_S512x128_1_0_0_1_n_n.contr.Idx) :
    (dot_S512x384_S384x128_S512x128_1_0_0_1_n_n.rhsIdx i q 0).val = (q ⟨0, by decide⟩).val :=
  dot_S512x384_S384x128_S512x128_1_0_0_1_n_n.rhsIdx_val_of_single rfl i q
/-- The right operand's column coordinate is the result's column. -/
theorem rhs_proj_1 (i : S512x128.Idx) (q : dot_S512x384_S384x128_S512x128_1_0_0_1_n_n.contr.Idx) :
    (dot_S512x384_S384x128_S512x128_1_0_0_1_n_n.rhsIdx i q 1).val = (i 1).val := by
  unfold DotDims.rhsIdx
  rw [dif_neg (show ¬(1 : Fin S384x128.rank) ∈ dot_S512x384_S384x128_S512x128_1_0_0_1_n_n.rhsBatch by decide), dif_pos (show (1 : Fin S384x128.rank) ∈ dot_S512x384_S384x128_S512x128_1_0_0_1_n_n.rhsNonContracting by decide)]
  rfl

/-- The product into the zero accumulator at (n, h): the sum over s of A[n,s] * B[s,h]. -/
theorem matmul_proj_apply (A : FVec Ideal S512x384 .bf16) (B : FVec Ideal S384x128 .bf16) (n : Fin 512) (h : Fin 128) :
    matmul dot_S512x384_S384x128_S512x128_1_0_0_1_n_n none A B (constant (F := Ideal) S512x128 .f32 0x00000000#32) (ix2 n h)
      = ∑ s : Fin 384, A (ix2 n s) * B (ix2 s h) := by
  simp only [matmul]
  rw [Ideal.matmul_constant_zero_apply, ← Equiv.sum_comp (contrEquiv1 dot_S512x384_S384x128_S512x128_1_0_0_1_n_n 384 rfl rfl).symm]
  refine Finset.sum_congr rfl fun k _ => ?_
  have hk := contrEquiv1_symm_val dot_S512x384_S384x128_S512x128_1_0_0_1_n_n 384 rfl rfl k
  have el : dot_S512x384_S384x128_S512x128_1_0_0_1_n_n.lhsIdx (ix2 n h) ((contrEquiv1 dot_S512x384_S384x128_S512x128_1_0_0_1_n_n 384 rfl rfl).symm k) = ix2 n k := funext fun a => Fin.ext (by
    match a with
    | ⟨0, _⟩ => exact lhs_proj_0 _ _
    | ⟨1, _⟩ => exact (lhs_proj_1 _ _).trans hk)
  have er : dot_S512x384_S384x128_S512x128_1_0_0_1_n_n.rhsIdx (ix2 n h) ((contrEquiv1 dot_S512x384_S384x128_S512x128_1_0_0_1_n_n 384 rfl rfl).symm k) = ix2 k h := funext fun a => Fin.ext (by
    match a with
    | ⟨0, _⟩ => exact (rhs_proj_0 _ _).trans hk
    | ⟨1, _⟩ => exact rhs_proj_1 _ _)
  rw [el, er]

/-! ## The projected rows, their mean, deviations and variance -/

/-- The projection plus bias at (n, h). -/
theorem pay2_apply (x0 : Vec Ideal S1x512x384 .f32) (x2 : Vec Ideal S128x384 .f32) (x3 : Vec Ideal S128 .f32)
    (n : Fin 512) (h : Fin 128) :
    k0_pay2 (F := Ideal) x0 x2 x3 (ix2 n h) = Cert.Spec.pre x0 x2 x3 n h := by
  unfold k0_pay2 Cert.Spec.pre
  rw [addf_apply, matmul_proj_apply, broadcastTo_1b_ab_apply, shapeCast_a_1a_apply]
  refine congrArg (· + x3 (ix1 h)) (Finset.sum_congr rfl fun s _ => ?_)
  rw [truncf_apply, shapeCast_1ab_ab_apply, transpose_ix2_apply, truncf_apply]

/-- The mean column at (n, 0). -/
theorem pay6_apply (x0 : Vec Ideal S1x512x384 .f32) (x2 : Vec Ideal S128x384 .f32) (x3 : Vec Ideal S128 .f32)
    (n : Fin 512) (u : Fin 1) :
    k0_pay6 (F := Ideal) x0 x2 x3 (ix2 n u) = Cert.Spec.mean x0 x2 x3 n := by
  unfold k0_pay6 Cert.Spec.mean
  rw [divf_apply, shapeCast_a_a1_apply, broadcast_apply]
  refine congrArg₂ Ideal.div ?_ rfl
  exact (rowsum_apply _ _ _ n).trans (Finset.sum_congr rfl fun h _ => pay2_apply x0 x2 x3 n h)

/-- The deviations at (n, h). -/
theorem pay8_apply (x0 : Vec Ideal S1x512x384 .f32) (x2 : Vec Ideal S128x384 .f32) (x3 : Vec Ideal S128 .f32)
    (n : Fin 512) (h : Fin 128) :
    k0_pay8 (F := Ideal) x0 x2 x3 (ix2 n h) = Cert.Spec.dev x0 x2 x3 n h := by
  unfold k0_pay8 Cert.Spec.dev
  rw [subf_apply, broadcastTo_a1_ab_apply, pay2_apply, pay6_apply]

/-- The variance column at (n, 0). -/
theorem pay7_apply (x0 : Vec Ideal S1x512x384 .f32) (x2 : Vec Ideal S128x384 .f32) (x3 : Vec Ideal S128 .f32)
    (n : Fin 512) (u : Fin 1) :
    k0_pay7 (F := Ideal) x0 x2 x3 (ix2 n u) = Cert.Spec.var x0 x2 x3 n := by
  unfold k0_pay7 Cert.Spec.var
  rw [divf_apply, shapeCast_a_a1_apply, broadcast_apply]
  refine congrArg₂ Ideal.div ?_ rfl
  refine (rowsum_apply _ _ _ n).trans (Finset.sum_congr rfl fun h _ => ?_)
  rw [mulf_apply, subf_apply, broadcastTo_a1_ab_apply, pay2_apply, pay6_apply]
  rfl

/-! ## The product against the low columns of Wout: a [512,128] by [128,128] product -/

/-- The left operand's row coordinate is the result's row. -/
theorem lhs_low_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
/-- The left operand's column coordinate is the contraction position. -/
theorem lhs_low_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
/-- The right operand's row coordinate is the contraction position. -/
theorem rhs_low_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
/-- The right operand's column coordinate is the result's column. -/
theorem rhs_low_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The product into the zero accumulator at (n, z): the sum over h of A[n,h] * B[h,z]. -/
theorem matmul_low_apply (A : FVec Ideal S512x128 .bf16) (B : FVec Ideal S128x128 .bf16) (n : Fin 512) (z : Fin 128) :
    matmul dot_S512x128_S128x128_S512x128_1_0_0_1_n_n none A B (constant (F := Ideal) S512x128 .f32 0x00000000#32) (ix2 n z)
      = ∑ h : Fin 128, A (ix2 n h) * B (ix2 h z) := by
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 n z) ((contrEquiv1 dot_S512x128_S128x128_S512x128_1_0_0_1_n_n 128 rfl rfl).symm k) = ix2 n k := funext fun a => Fin.ext (by
    match a with
    | ⟨0, _⟩ => exact lhs_low_0 _ _
    | ⟨1, _⟩ => exact (lhs_low_1 _ _).trans hk)
  have er : dot_S512x128_S128x128_S512x128_1_0_0_1_n_n.rhsIdx (ix2 n z) ((contrEquiv1 dot_S512x128_S128x128_S512x128_1_0_0_1_n_n 128 rfl rfl).symm k) = ix2 k z := funext fun a => Fin.ext (by
    match a with
    | ⟨0, _⟩ => exact (rhs_low_0 _ _).trans hk
    | ⟨1, _⟩ => exact rhs_low_1 _ _)
  rw [el, er]

/-! ## The stored payload and the window -/

/-- The stored payload at (a, n, z): the normalised row n against column z of the low half of Wout. -/
theorem pay10_apply (x0 : Vec Ideal S1x512x384 .f32) (x2 : Vec Ideal S128x384 .f32) (x3 x6 x7 : Vec Ideal S128 .f32)
    (x8 : Vec Ideal S128x256 .f32) (a : Fin 1) (n : Fin 512) (z : Fin 128) :
    k0_pay10 (F := Ideal) (k0_pay4 x6) (k0_pay5 x7) (k0_pay7 x0 x2 x3) (k0_pay8 x0 x2 x3) x8 (ix3 a n z)
      = Cert.Spec.projLow (Cert.Spec.ln x0 x2 x3 x6 x7) x8 (ix3 a n z) := by
  unfold k0_pay10
  rw [shapeCast_ab_1ab_apply, matmul_low_apply]
  show _ = ∑ h : Fin 128, Cert.Spec.ln x0 x2 x3 x6 x7 n h * x8 (ix2 z ⟨h.val, by omega⟩)
  refine Finset.sum_congr rfl fun h _ => ?_
  rw [truncf_apply, transpose_ix2_apply, truncf_apply,
    slice2_axis1_apply 0 x8 _ z h ⟨h.val, by omega⟩ (Nat.zero_add _).symm]
  refine congrArg (· * x8 (ix2 z ⟨h.val, by omega⟩)) ?_
  unfold Cert.Spec.ln
  rw [addf_apply, mulf_apply, mulf_apply, broadcastTo_a1_ab_apply, broadcastTo_1b_ab_apply, broadcastTo_1b_ab_apply]
  unfold k0_pay4 k0_pay5
  rw [shapeCast_a_1a_apply, shapeCast_a_1a_apply, pay8_apply]
  show Cert.Spec.dev x0 x2 x3 n h * Ideal.rsqrt (k0_pay7 (F := Ideal) x0 x2 x3 (ix2 n (0 : Fin 1)) + Cert.Spec.eps) * x6 (ix1 h) + x7 (ix1 h) = _
  rw [pay7_apply]

/-- THE WINDOW: what the launch leaves in its first output window is the normalised rows contracted against the
    low columns of Wout. -/
theorem out0_10_eq (x0 x1 : Vec Ideal S1x512x384 .f32) (x2 : Vec Ideal S128x384 .f32) (x3 : Vec Ideal S128 .f32) (x4 : Vec Ideal S128x384 .f32) (x5 x6 x7 : Vec Ideal S128 .f32) (x8 : Vec Ideal S128x256 .f32) (x9 : Vec Ideal S128 .f32) :
    out0_10 (F := Ideal) x0 x1 x2 x3 x4 x5 x6 x7 x8 x9 = Cert.Spec.projLow (Cert.Spec.ln x0 x2 x3 x6 x7) x8 := by
  funext i
  obtain ⟨a, n, z, rfl⟩ : ∃ (a : Fin 1) (n : Fin 512) (z : Fin 128), i = ix3 a n z := ⟨i 0, i 1, i 2, eq_ix3 i⟩
  have hz3 : (![0, 0, 0] : Fin 3 → Nat) = fun _ => 0 := by
    funext d; match d with | ⟨0, _⟩ => rfl | ⟨1, _⟩ => rfl | ⟨2, _⟩ => rfl
  have hz2 : (![0, 0] : Fin 2 → Nat) = fun _ => 0 := by
    funext d; match d with | ⟨0, _⟩ => rfl | ⟨1, _⟩ => rfl
  have hz1 : (![0] : Fin 1 → Nat) = fun _ => 0 := by
    funext d; match d with | ⟨0, _⟩ => rfl
  unfold out0_10
  rw [View.canon_unit_zero hz3]
  simp only [View.ld_unit_zero (S := S1x512x384) hz3, View.ld_unit_zero (S := S128x384) hz2,
    View.ld_unit_zero (S := S128) hz1, View.ld_unit_zero (S := S128x256) hz2]
  exact pay10_apply x0 x2 x3 x6 x7 x8 a n z

end Cert.KernelIdeal.R0PayLow

end
-- ==== Proof.R0PayHigh.lean ====
/-
  The second normalised projection of the first launch, read index by index.

  The block stored for the second output is, at (0, n, z), the sum over h < 128 of L n h * Wout[z, 128 + h], where
  L is the layer normalisation of the rows  pre n h = (sum over s of s2[0,n,s] * W2[h,s]) + b2[h]:
    mean n = (sum over h of pre n h) / 128,   dev n h = pre n h - mean n,
    var n  = (sum over h of dev n h * dev n h) / 128,
    L n h  = dev n h * rsqrt (var n + eps) * gamma[h] + beta[h].
  Every step is an index equation: a product into zero is the sum over its one contracted axis, a lane sum is the
  sum over the reduced axis, and each layout operation reads its operand at one index.
-/
import proofs.«142635_j89464168775793_1_alg».proof.Proof.Gen.KernelIdeal.Frame
import proofs.«142635_j89464168775793_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R0PayHigh
open Cert.KernelIdeal Cert.KernelIdeal.Gen
open Idealize.ShloMosaic Idealize.ShloMosaic.ValueIdx

/-! ## The two products, each into the zero accumulator -/

/-- Left operand of the [512,384] x [384,128] product: its row coordinate is the result's row. -/
theorem lhs_proj_0 (i : S512x128.Idx) (q : dot_S512x384_S384x128_S512x128_1_0_0_1_n_n.contr.Idx) :
    (dot_S512x384_S384x128_S512x128_1_0_0_1_n_n.lhsIdx i q 0).val = (i 0).val := by
  unfold DotDims.lhsIdx
  rw [dif_neg (show ¬(0 : Fin S512x384.rank) ∈ dot_S512x384_S384x128_S512x128_1_0_0_1_n_n.lhsBatch by decide), dif_pos (show (0 : Fin S512x384.rank) ∈ dot_S512x384_S384x128_S512x128_1_0_0_1_n_n.lhsNonContracting by decide)]
  rfl
/-- Its column coordinate is the contracted position. -/
theorem lhs_proj_1 (i : S512x128.Idx) (q : dot_S512x384_S384x128_S512x128_1_0_0_1_n_n.contr.Idx) :
    (dot_S512x384_S384x128_S512x128_1_0_0_1_n_n.lhsIdx i q 1).val = (q ⟨0, by decide⟩).val :=
  dot_S512x384_S384x128_S512x128_1_0_0_1_n_n.lhsIdx_val_of_single rfl i q
/-- Right operand: its row coordinate is the contracted position. -/
theorem rhs_proj_0 (i : S512x128.Idx) (q : dot_S512x384_S384x128_S512x128_1_0_0_1_n_n.contr.Idx) :
    (dot_S512x384_S384x128_S512x128_1_0_0_1_n_n.rhsIdx i q 0).val = (q ⟨0, by decide⟩).val :=
  dot_S512x384_S384x128_S512x128_1_0_0_1_n_n.rhsIdx_val_of_single rfl i q
/-- Its column coordinate is the result's column. -/
theorem rhs_proj_1 (i : S512x128.Idx) (q : dot_S512x384_S384x128_S512x128_1_0_0_1_n_n.contr.Idx) :
    (dot_S512x384_S384x128_S512x128_1_0_0_1_n_n.rhsIdx i q 1).val = (i 1).val := by
  unfold DotDims.rhsIdx
  rw [dif_neg (show ¬(1 : Fin S384x128.rank) ∈ dot_S512x384_S384x128_S512x128_1_0_0_1_n_n.rhsBatch by decide), dif_pos (show (1 : Fin S384x128.rank) ∈ dot_S512x384_S384x128_S512x128_1_0_0_1_n_n.rhsNonContracting by decide)]
  rfl

/-- The [512,384] x [384,128] product into zero, at (n, h): the sum over s of l[n,s] * r[s,h]. -/
theorem matmul_proj_apply {φ₁ φ₂ : FTy} (l : FVec Ideal S512x384 φ₁) (r : FVec Ideal S384x128 φ₂) (n : Fin 512) (h : Fin 128) :
    matmul dot_S512x384_S384x128_S512x128_1_0_0_1_n_n none l r (constant (F := Ideal) S512x128 .f32 0x00000000#32) (ix2 n h)
      = ∑ s : Fin 384, l (ix2 n s) * r (ix2 s h) := by
  simp only [matmul]
  rw [Ideal.matmul_constant_zero_apply, ← Equiv.sum_comp (contrEquiv1 dot_S512x384_S384x128_S512x128_1_0_0_1_n_n 384 rfl rfl).symm]
  refine Finset.sum_congr rfl fun k _ => ?_
  have hk := contrEquiv1_symm_val dot_S512x384_S384x128_S512x128_1_0_0_1_n_n 384 rfl rfl k
  have el : dot_S512x384_S384x128_S512x128_1_0_0_1_n_n.lhsIdx (ix2 n h) ((contrEquiv1 dot_S512x384_S384x128_S512x128_1_0_0_1_n_n 384 rfl rfl).symm k) = ix2 n k := funext fun a => Fin.ext (by
    match a with
    | ⟨0, _⟩ => exact lhs_proj_0 _ _
    | ⟨1, _⟩ => exact (lhs_proj_1 _ _).trans hk)
  have er : dot_S512x384_S384x128_S512x128_1_0_0_1_n_n.rhsIdx (ix2 n h) ((contrEquiv1 dot_S512x384_S384x128_S512x128_1_0_0_1_n_n 384 rfl rfl).symm k) = ix2 k h := funext fun a => Fin.ext (by
    match a with
    | ⟨0, _⟩ => exact (rhs_proj_0 _ _).trans hk
    | ⟨1, _⟩ => exact rhs_proj_1 _ _)
  rw [el, er]

/-- Left operand of the [512,128] x [128,128] product: its row coordinate is the result's row. -/
theorem lhs_out_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
/-- Its column coordinate is the contracted position. -/
theorem lhs_out_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
/-- Right operand: its row coordinate is the contracted position. -/
theorem rhs_out_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
/-- Its column coordinate is the result's column. -/
theorem rhs_out_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The [512,128] x [128,128] product into zero, at (n, z): the sum over h of l[n,h] * r[h,z]. -/
theorem matmul_out_apply {φ₁ φ₂ : FTy} (l : FVec Ideal S512x128 φ₁) (r : FVec Ideal S128x128 φ₂) (n : Fin 512) (z : Fin 128) :
    matmul dot_S512x128_S128x128_S512x128_1_0_0_1_n_n none l r (constant (F := Ideal) S512x128 .f32 0x00000000#32) (ix2 n z)
      = ∑ h : Fin 128, l (ix2 n h) * r (ix2 h z) := by
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 n z) ((contrEquiv1 dot_S512x128_S128x128_S512x128_1_0_0_1_n_n 128 rfl rfl).symm k) = ix2 n k := funext fun a => Fin.ext (by
    match a with
    | ⟨0, _⟩ => exact lhs_out_0 _ _
    | ⟨1, _⟩ => exact (lhs_out_1 _ _).trans hk)
  have er : dot_S512x128_S128x128_S512x128_1_0_0_1_n_n.rhsIdx (ix2 n z) ((contrEquiv1 dot_S512x128_S128x128_S512x128_1_0_0_1_n_n 128 rfl rfl).symm k) = ix2 k z := funext fun a => Fin.ext (by
    match a with
    | ⟨0, _⟩ => exact (rhs_out_0 _ _).trans hk
    | ⟨1, _⟩ => exact rhs_out_1 _ _)
  rw [el, er]

/-! ## A row statistic kept as a column -/

/-- The lane sum of a [512,128] array, at n: the sum over the 128 lanes of row n. -/
theorem rowSum_apply (v : FVec Ideal S512x128 .f32) (n : Fin 512) :
    multiReduction (F := Ideal) .add [1] S512 v 0x00000000#32 reduces_S512x128_S512 (.inl rfl) rfl (ix1 n)
      = ∑ h : Fin 128, v (ix2 n h) := by
  refine (Ideal.multiReduction_add_single v 0x00000000#32 reduces_S512x128_S512 (.inl rfl) rfl (ix1 n)).trans ?_
  refine Finset.sum_congr rfl fun h _ => congrArg v (funext fun a => Fin.ext ?_)
  match a with
  | ⟨0, _⟩ => rfl
  | ⟨1, _⟩ => rfl

/-- A [512] array cast to [512,1] reads, at (n, u), the operand at n. -/
theorem shapeCast_col_apply {α : Type} (x : S512.Idx → α) (n : Fin 512) (u : Fin 1) :
    shapeCast S512x1 x shapeCasts_S512_S512x1 (ix2 n u) = x (ix1 n) :=
  shapeCast_apply x shapeCasts_S512_S512x1 _ _ (by
    have hu : u.val = 0 := by omega
    rw [Shape.rowMajor_val_one, Shape.rowMajor_val_two]
    show n.val = n.val * 1 + u.val
    rw [hu, Nat.mul_one, Nat.add_zero])

/-- A [512,1] column broadcast to [512,128] reads, at (n, h), the column's entry of row n. -/
theorem broadcastTo_col_apply {α : Type} (c : S512x1.Idx → α) (n : Fin 512) (h : Fin 128) :
    broadcastTo S512x128 c broadcasts_S512x1_S512x128 (ix2 n h) = c (ix2 n (0 : Fin 1)) := by
  refine broadcastTo_apply c broadcasts_S512x1_S512x128 (ix2 n h) (ix2 n (0 : Fin 1)) fun ax => ?_
  match ax with
  | ⟨0, _⟩ =>
    show n.val = if (512 : Nat) = 1 then 0 else n.val
    rw [if_neg (by decide)]
  | ⟨1, _⟩ => rfl

/-- A row's lane sum divided by 128 and kept as a column, at (n, u). -/
theorem rowAvg_apply (v : FVec Ideal S512x128 .f32) (n : Fin 512) (u : Fin 1) :
    divf (shapeCast S512x1 (multiReduction (F := Ideal) .add [1] S512 v 0x00000000#32 reduces_S512x128_S512 (.inl rfl) rfl) shapeCasts_S512_S512x1)
      (broadcast S512x1 (Scalar.ofBits (F := Ideal) .f32 0x43000000#32)) (ix2 n u)
      = Ideal.div (∑ h : Fin 128, v (ix2 n h)) Cert.Spec.c128 := by
  refine (divf_apply _ _ _).trans ?_
  refine congrArg₂ Ideal.div ?_ rfl
  exact (shapeCast_col_apply _ n u).trans (rowSum_apply v n)

/-! ## Layer normalisation of the rows of a [512,128] array -/

/-- Row n's mean. -/
def rowMean (v : FVec Ideal S512x128 .f32) (n : Fin 512) : EReal :=
  Ideal.div (∑ h : Fin 128, v (ix2 n h)) Cert.Spec.c128
/-- Row n's variance. -/
def rowVar (v : FVec Ideal S512x128 .f32) (n : Fin 512) : EReal :=
  Ideal.div (∑ h : Fin 128, (v (ix2 n h) - rowMean v n) * (v (ix2 n h) - rowMean v n)) Cert.Spec.c128
/-- Row n normalised, scaled by the one row of g and shifted by the one row of b, at lane h. -/
def rowLn (v : FVec Ideal S512x128 .f32) (g b : FVec Ideal S1x128 .f32) (n : Fin 512) (h : Fin 128) : EReal :=
  (v (ix2 n h) - rowMean v n) * Ideal.rsqrt (rowVar v n + Cert.Spec.eps) * g (ix2 (0 : Fin 1) h) + b (ix2 (0 : Fin 1) h)

/-- The column of row means as the body computes it: lane sum, kept as a column, over 128. -/
abbrev meanCol (v : FVec Ideal S512x128 .f32) : FVec Ideal S512x1 .f32 :=
  divf (shapeCast S512x1 (multiReduction (F := Ideal) .add [1] S512 v 0x00000000#32 reduces_S512x128_S512 (.inl rfl) rfl) shapeCasts_S512_S512x1)
    (broadcast S512x1 (Scalar.ofBits (F := Ideal) .f32 0x43000000#32))
/-- The deviations as the body computes them: the array less its column of means spread over the lanes. -/
abbrev devs (v : FVec Ideal S512x128 .f32) : FVec Ideal S512x128 .f32 :=
  subf v (broadcastTo S512x128 (meanCol v) broadcasts_S512x1_S512x128)

theorem meanCol_apply (v : FVec Ideal S512x128 .f32) (n : Fin 512) (u : Fin 1) : meanCol v (ix2 n u) = rowMean v n :=
  rowAvg_apply v n u

theorem devs_apply (v : FVec Ideal S512x128 .f32) (n : Fin 512) (h : Fin 128) :
    devs v (ix2 n h) = v (ix2 n h) - rowMean v n := by
  refine (subf_apply _ _ _).trans (congrArg (v (ix2 n h) - ·) ?_)
  exact (broadcastTo_col_apply _ n h).trans (meanCol_apply v n 0)

/-- The column of row variances: the mean of the squared deviations. -/
theorem varCol_apply (v : FVec Ideal S512x128 .f32) (n : Fin 512) (u : Fin 1) :
    meanCol (mulf (devs v) (devs v)) (ix2 n u) = rowVar v n := by
  refine (rowAvg_apply _ n u).trans ?_
  unfold rowVar
  refine congrArg (Ideal.div · Cert.Spec.c128) (Finset.sum_congr rfl fun h _ => ?_)
  refine (mulf_apply _ _ _).trans ?_
  rw [devs_apply]

/-- A reciprocal square root at an index is that of the entry. -/
theorem rsqrt_at {s : Shape} {φ : FTy} (x : FVec Ideal s φ) (i : s.Idx) : rsqrt x i = Ideal.rsqrt (x i) := rfl

/-! ## The long payload: normalise the rows, then contract against the high columns of the [128,256] block -/

theorem pay9_apply (v21 : FVec Ideal S512x128 .f32) (v23 v25 : FVec Ideal S1x128 .f32) (v70 : Vec Ideal S128x256 .f32)
    (n : Fin 512) (z : Fin 128) :
    k0_pay9 (F := Ideal) v21 v23 v25 v70 (ix2 n z)
      = ∑ h : Fin 128, rowLn v21 v23 v25 n h * v70 (ix2 z ⟨128 + h.val, by omega⟩) := by
  unfold k0_pay9
  refine (matmul_out_apply _ _ n z).trans (Finset.sum_congr rfl fun h _ => ?_)
  refine congrArg₂ (· * ·) ?_ ?_
  · unfold rowLn
    refine (truncf_apply (ψ := .bf16) _ bitsLt_bf16_f32 _).trans ?_
    refine (addf_apply _ _ _).trans ?_
    refine congrArg₂ (· + ·) ?_ (broadcastTo_1b_ab_apply v25 _ n h)
    refine (mulf_apply _ _ _).trans ?_
    refine congrArg₂ (· * ·) ?_ (broadcastTo_1b_ab_apply v23 _ n h)
    refine (mulf_apply _ _ _).trans ?_
    refine congrArg₂ (· * ·) (devs_apply v21 n h) ?_
    refine (broadcastTo_col_apply _ n h).trans ?_
    refine (rsqrt_at _ _).trans (congrArg Ideal.rsqrt ?_)
    refine (addf_apply _ _ _).trans ?_
    exact congrArg₂ (· + ·) (varCol_apply v21 n 0) rfl
  · refine (transpose_ix2_apply _ _ h z).trans ?_
    refine (truncf_apply (ψ := .bf16) _ bitsLt_bf16_f32 _).trans ?_
    exact slice2_axis1_eq 128 v70 slices_S128x256_o0_128_S128x128 z h

/-! ## The projected rows, and the scale and shift rows -/

/-- The projection plus bias, at (n, h): the sum over s of x[0,n,s] * W[h,s], plus b[h]. -/
theorem pay3_apply (x : Vec Ideal S1x512x384 .f32) (W : Vec Ideal S128x384 .f32) (b : Vec Ideal S128 .f32)
    (n : Fin 512) (h : Fin 128) :
    k0_pay3 (F := Ideal) x W b (ix2 n h) = Cert.Spec.pre x W b n h := by
  unfold k0_pay3 Cert.Spec.pre
  refine (addf_apply _ _ _).trans ?_
  refine congrArg₂ (· + ·) ?_ ?_
  · refine (matmul_proj_apply _ _ n h).trans (Finset.sum_congr rfl fun s _ => ?_)
    refine congrArg₂ (· * ·) ?_ ?_
    · refine (truncf_apply (ψ := .bf16) _ bitsLt_bf16_f32 _).trans ?_
      exact shapeCast_1ab_ab_apply x _ n s
    · refine (transpose_ix2_apply _ _ s h).trans ?_
      exact truncf_apply (ψ := .bf16) _ bitsLt_bf16_f32 _
  · refine (broadcastTo_1b_ab_apply _ _ n h).trans ?_
    exact shapeCast_a_1a_apply b _ 0 h

/-- The scale as a [1,128] row, at (u, h): gamma[h]. -/
theorem pay4_apply (g : Vec Ideal S128 .f32) (u : Fin 1) (h : Fin 128) : k0_pay4 (F := Ideal) g (ix2 u h) = g (ix1 h) := by
  unfold k0_pay4
  exact shapeCast_a_1a_apply g _ u h

/-- The shift as a [1,128] row, at (u, h): beta[h]. -/
theorem pay5_apply (be : Vec Ideal S128 .f32) (u : Fin 1) (h : Fin 128) : k0_pay5 (F := Ideal) be (ix2 u h) = be (ix1 h) := by
  unfold k0_pay5
  exact shapeCast_a_1a_apply be _ u h

/-- Normalising the projected rows is the layer normalisation of the specification. -/
theorem rowLn_pre (x : Vec Ideal S1x512x384 .f32) (W : Vec Ideal S128x384 .f32) (b g be : Vec Ideal S128 .f32)
    (n : Fin 512) (h : Fin 128) :
    rowLn (k0_pay3 (F := Ideal) x W b) (k0_pay4 (F := Ideal) g) (k0_pay5 (F := Ideal) be) n h
      = Cert.Spec.ln x W b g be n h := by
  have hpre : ∀ h' : Fin 128, k0_pay3 (F := Ideal) x W b (ix2 n h') = Cert.Spec.pre x W b n h' :=
    fun h' => pay3_apply x W b n h'
  have hmean : rowMean (k0_pay3 (F := Ideal) x W b) n = Cert.Spec.mean x W b n := by
    unfold rowMean Cert.Spec.mean
    exact congrArg (Ideal.div · Cert.Spec.c128) (Finset.sum_congr rfl fun h' _ => hpre h')
  have hvar : rowVar (k0_pay3 (F := Ideal) x W b) n = Cert.Spec.var x W b n := by
    unfold rowVar Cert.Spec.var Cert.Spec.dev
    rw [hmean]
    exact congrArg (Ideal.div · Cert.Spec.c128) (Finset.sum_congr rfl fun h' _ => by rw [hpre h'])
  unfold rowLn Cert.Spec.ln Cert.Spec.dev
  rw [hvar, hmean, hpre h, pay4_apply, pay5_apply]

/-! ## The block stored for the second output -/

theorem out0_11_eq (x0 x1 : Vec Ideal S1x512x384 .f32) (x2 : Vec Ideal S128x384 .f32) (x3 : Vec Ideal S128 .f32) (x4 : Vec Ideal S128x384 .f32) (x5 x6 x7 : Vec Ideal S128 .f32) (x8 : Vec Ideal S128x256 .f32) (x9 : Vec Ideal S128 .f32) :
    out0_11 (F := Ideal) x0 x1 x2 x3 x4 x5 x6 x7 x8 x9 = Cert.Spec.projHigh (Cert.Spec.ln x1 x4 x5 x6 x7) x8 := by
  funext i
  obtain ⟨a, n, z, rfl⟩ : ∃ (a : Fin 1) (n : Fin 512) (z : Fin 128), i = ix3 a n z := ⟨i 0, i 1, i 2, eq_ix3 i⟩
  have hz3 : (![0, 0, 0] : Fin 3 → Nat) = fun _ => 0 := by
    funext d; match d with | ⟨0, _⟩ => rfl | ⟨1, _⟩ => rfl | ⟨2, _⟩ => rfl
  have hz2 : (![0, 0] : Fin 2 → Nat) = fun _ => 0 := by
    funext d; match d with | ⟨0, _⟩ => rfl | ⟨1, _⟩ => rfl
  have hz1 : (![0] : Fin 1 → Nat) = fun _ => 0 := by
    funext d; match d with | ⟨0, _⟩ => rfl
  unfold out0_11
  rw [View.canon_unit_zero hz3]
  simp only [View.ld_unit_zero (S := S1x512x384) hz3, View.ld_unit_zero (S := S128x384) hz2,
    View.ld_unit_zero (S := S128) hz1, View.ld_unit_zero (S := S128x256) hz2]
  unfold k0_pay1
  refine (shapeCast_ab_1ab_apply _ _ a n z).trans ?_
  refine (pay9_apply _ _ _ _ n z).trans ?_
  unfold Cert.Spec.projHigh
  refine Finset.sum_congr rfl fun h _ => ?_
  exact congrArg₂ (· * ·) (rowLn_pre x1 x4 x5 x6 x7 n h) rfl

end Cert.KernelIdeal.R0PayHigh

end
-- ==== Proof.R1Value.lean ====
/-
  The second kernel region's output, entry by entry.

  The region runs over a 4 × 4 grid of tiles. At tile (I, J) the body reads rows 128·I … 128·I + 127 of the first
  projected array pa[1,512,128], rows 128·J … 128·J + 127 of the second, pb[1,512,128], and the whole bias bo[128], and
  stores the tile
      out[0, a, b, z] = (pa[0, 128·I + a, z] + pb[0, 128·J + b, z]) * 2^-18 + bo[z]        (a, b, z < 128)
  as block (0, I, J, 0) of the output array [1,512,512,128]: the row block is spread over the tile's middle axis, the
  column block over its leading axis, the bias over both.

  `tile_apply` reads the stored tile at one entry; `flushed_eq` says that what tile (I, J) writes back is its block of
  the one array `Cert.Spec.outSplit pa pb bo` (an input block's coordinate is block index × block size + the coordinate
  inside the block, and the input blocks' indices are the output block's); `cover` says the sixteen blocks cover the
  array (index (0, n, m, z) lies in block (n / 128, m / 128)); `final3` concludes that after the region the output
  array is `Cert.Spec.outSplit` of the three input arrays as the region finds them.
-/
import proofs.«142635_j89464168775793_1_alg».proof.Proof.Gen.KernelIdeal.Frame
import proofs.«142635_j89464168775793_1_alg».proof.Proof.Spec
import Idealize.ShloMosaic.Lib.Pipeline.Value
import Idealize.ShloMosaic.Lib.ValueIdx

noncomputable section

namespace Cert.KernelIdeal.R1Value

open Cert.KernelIdeal Cert.KernelIdeal.Gen Idealize.ShloMosaic Idealize.ShloMosaic.TcCoe Idealize.SL.Sem
open Idealize.ShloMosaic.Pipeline (Dat)
open Idealize.ShloMosaic.ValueIdx

section Tile
variable {α : Type}

/-- The row operand spread over the middle axis: entry (a, b, z) of the broadcast of the [1,128,128] block viewed
    [128,1,128] is the block's entry (0, a, z). -/
theorem rowSpread_apply (x : S1x128x128.Idx → α) (a b z : Fin 128) :
    broadcastTo S128x128x128
        (shapeCast S128x1x128 (shapeCast S128x1x128 (shapeCast S128x128 x shapeCasts_S1x128x128_S128x128)
          shapeCasts_S128x128_S128x1x128) shapeCasts_S128x1x128_S128x1x128)
        broadcasts_S128x1x128_S128x128x128 (ix3 a b z)
      = x (ix3 (0 : Fin 1) a z) := by
  refine (broadcastTo_apply _ _ (ix3 a b z) (ix3 a (0 : Fin 1) z) ?_).trans ?_
  · intro d
    match d with
    | ⟨0, _⟩ => rfl
    | ⟨1, _⟩ => rfl
    | ⟨2, _⟩ => rfl
  rw [shapeCast_self]
  refine (shapeCast_apply _ _ (ix3 a (0 : Fin 1) z) (ix2 a z) ?_).trans ?_
  · rw [Shape.rowMajor_val_two, Shape.rowMajor_val_three]
    show a.val * 128 + z.val = (a.val * 1 + 0) * 128 + z.val
    omega
  refine (shapeCast_dropUnit_apply ![128, 128] x _ (ix2 a z)).trans ?_
  refine congrArg x ?_
  funext d
  match d with
  | ⟨0, _⟩ => rfl
  | ⟨1, _⟩ => rfl
  | ⟨2, _⟩ => rfl

/-- The column operand spread over the leading axis: entry (a, b, z) of the broadcast of the [1,128,128] block is the
    block's entry (0, b, z). -/
theorem colSpread_apply (x : S1x128x128.Idx → α) (a b z : Fin 128) :
    broadcastTo S128x128x128
        (shapeCast S1x128x128 (shapeCast S1x128x128 (shapeCast S128x128 x shapeCasts_S1x128x128_S128x128)
          shapeCasts_S128x128_S1x128x128) shapeCasts_S1x128x128_S1x128x128)
        broadcasts_S1x128x128_S128x128x128 (ix3 a b z)
      = x (ix3 (0 : Fin 1) b z) := by
  refine (broadcastTo_apply _ _ (ix3 a b z) (ix3 (0 : Fin 1) b z) ?_).trans ?_
  · intro d
    match d with
    | ⟨0, _⟩ => rfl
    | ⟨1, _⟩ => rfl
    | ⟨2, _⟩ => rfl
  rw [shapeCast_self, shapeCast_shapeCast]

/-- The bias spread over the two leading axes: entry (a, b, z) of the broadcast of the [128] vector viewed [1,1,128]
    is the vector's entry z. -/
theorem biasSpread_apply (x : S128.Idx → α) (a b z : Fin 128) :
    broadcastTo S128x128x128 (shapeCast S1x1x128 x shapeCasts_S128_S1x1x128) broadcasts_S1x1x128_S128x128x128 (ix3 a b z)
      = x (ix1 z) := by
  refine (broadcastTo_apply _ _ (ix3 a b z) (ix3 (0 : Fin 1) (0 : Fin 1) z) ?_).trans ?_
  · intro d
    match d with
    | ⟨0, _⟩ => rfl
    | ⟨1, _⟩ => rfl
    | ⟨2, _⟩ => rfl
  refine shapeCast_apply _ _ (ix3 (0 : Fin 1) (0 : Fin 1) z) (ix1 z) ?_
  rw [Shape.rowMajor_val_one, Shape.rowMajor_val_three]
  show z.val = (0 * 1 + 0) * 128 + z.val
  omega

end Tile

/-- One entry of the tile the body stores: (row entry + column entry) * 2^-18 + bias entry. -/
theorem tile_apply (x0 x1 : Vec Ideal S1x128x128 .f32) (x2 : Vec Ideal S128 .f32) (a b z : Fin 128) :
    k1_pay1 x0 x1 x2 (ix4 (0 : Fin 1) a b z)
      = (x0 (ix3 (0 : Fin 1) a z) + x1 (ix3 (0 : Fin 1) b z)) * Cert.Spec.scaleMul + x2 (ix1 z) := by
  unfold k1_pay1
  refine (shapeCast_addUnit_apply ![128, 128, 128] _ _ _).trans ?_
  have e : (fun d : Fin 3 => ix4 (0 : Fin 1) a b z d.succ) = ix3 a b z := by
    funext d
    match d with
    | ⟨0, _⟩ => rfl
    | ⟨1, _⟩ => rfl
    | ⟨2, _⟩ => rfl
  rw [e]
  show (_ + _) * _ + _ = _
  rw [rowSpread_apply, colSpread_apply, biasSpread_apply]
  rfl

variable (V : (c : Dev nD) → (b : Ref sig .tc) → Buf (Elt Ideal) ((c : Thread nD τ).loc b))

/-- The zero offsets, however spelt. -/
theorem zeros1 : (![0] : Fin 1 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The blocks' index maps over the sixteen grid points: the output's block index is (0, I, J, 0) with I, J ≤ 3, the row
    operand's is (0, I, 0), the column operand's (0, J, 0), the bias's (0). -/
theorem blockIdx : ∀ t : Fin cfg1.N,
    win1_3.index t (0 : Fin 4) = 0 ∧ win1_3.index t (3 : Fin 4) = 0
    ∧ win1_3.index t (1 : Fin 4) ≤ 3 ∧ win1_3.index t (2 : Fin 4) ≤ 3
    ∧ win1_0.index t (0 : Fin 3) = 0 ∧ win1_0.index t (1 : Fin 3) = win1_3.index t (1 : Fin 4) ∧ win1_0.index t (2 : Fin 3) = 0
    ∧ win1_1.index t (0 : Fin 3) = 0 ∧ win1_1.index t (1 : Fin 3) = win1_3.index t (2 : Fin 4) ∧ win1_1.index t (2 : Fin 3) = 0
    ∧ win1_2.index t (0 : Fin 1) = 0 :=
  (by decide +kernel : ∀ t : Fin grid1.N, _)

/-- Every pair (I, J) of block indices is some grid point's. -/
theorem blockOnto : ∀ (q1 q2 : Fin 4), ∃ t : Fin cfg1.N, win1_3.index t = ![0, q1.val, q2.val, 0] :=
  (by decide +kernel : ∀ (q1 q2 : Fin 4), ∃ t : Fin grid1.N, win1_3.index t = ![0, q1.val, q2.val, 0])

/-- WHAT GRID POINT `t` WRITES BACK is block `t` of `Cert.Spec.outSplit` of the three input arrays as the region finds them. -/
theorem flushed_eq (c : Dev nD) (t : Fin cfg1.N) :
    (dat1 (F := Ideal) V c).flushed 3 t
      = ((cfg1.win 3).blk t).view.read (Elt Ideal) (Cert.Spec.outSplit (V c main_v0_0) (V c main_v0_1) (V c main_arg9)) := by
  show (cfg1.win 3).cut (grid1.coords t) ((dat1 V c).after 3 t) = _
  rw [after1_3]
  unfold out1_3
  rw [View.canon_unit_zero zeros4]
  simp only [View.ld_unit_zero (S := S1x128x128) zeros3, View.ld_unit_zero (S := S128) zeros1]
  funext j
  have h0 : (j 0).val < 1 := (j 0).isLt
  have h1 : (j 1).val < 128 := (j 1).isLt
  have h2 : (j 2).val < 128 := (j 2).isLt
  have h3 : (j 3).val < 128 := (j 3).isLt
  obtain ⟨i0, i3, l1, l2, a0, a1, a2, b0, b1, b2, c0⟩ := blockIdx t
  have hx : (win1 3).xinj (grid1.coords t) j
      = ix4 (⟨(j 0).val, h0⟩ : Fin 1) (⟨(j 1).val, h1⟩ : Fin 128) (⟨(j 2).val, h2⟩ : Fin 128) (⟨(j 3).val, h3⟩ : Fin 128) := by
    funext e
    match e with
    | ⟨0, _⟩ => rfl
    | ⟨1, _⟩ => rfl
    | ⟨2, _⟩ => rfl
    | ⟨3, _⟩ => rfl
  have hz : (⟨(j 0).val, h0⟩ : Fin 1) = 0 := Fin.ext (by show (j 0).val = 0; omega)
  show k1_pay1 (iblk1 V c 0 t) (iblk1 V c 1 t) (iblk1 V c 2 t) ((win1 3).xinj (grid1.coords t) j)
    = Cert.Spec.outSplit (V c main_v0_0) (V c main_v0_1) (V c main_arg9) (((cfg1.win 3).blk t).view.emb j)
  rw [hx, hz, tile_apply]
  unfold Cert.Spec.outSplit
  refine congrArg₂ (· + ·) (congrArg (· * Cert.Spec.scaleMul) (congrArg₂ (· + ·) ?_ ?_)) ?_
  · -- the row operand's block sits at the output block's row offset
    show V c main_v0_0 (((cfg1.win 0).blk t).view.emb (ix3 (0 : Fin 1) (⟨(j 1).val, h1⟩ : Fin 128) (⟨(j 3).val, h3⟩ : Fin 128))) = _
    refine congrArg (V c main_v0_0) ?_
    funext d; apply Fin.ext
    match d with
    | ⟨0, _⟩ => show win1_0.index t (0 : Fin 3) * 1 + 1 * 0 = 0; omega
    | ⟨1, _⟩ => show win1_0.index t (1 : Fin 3) * 128 + 1 * (j 1).val = win1_3.index t (1 : Fin 4) * 128 + 1 * (j 1).val; omega
    | ⟨2, _⟩ => show win1_0.index t (2 : Fin 3) * 128 + 1 * (j 3).val = win1_3.index t (3 : Fin 4) * 128 + 1 * (j 3).val; omega
  · -- the column operand's block sits at the output block's column offset
    show V c main_v0_1 (((cfg1.win 1).blk t).view.emb (ix3 (0 : Fin 1) (⟨(j 2).val, h2⟩ : Fin 128) (⟨(j 3).val, h3⟩ : Fin 128))) = _
    refine congrArg (V c main_v0_1) ?_
    funext d; apply Fin.ext
    match d with
    | ⟨0, _⟩ => show win1_1.index t (0 : Fin 3) * 1 + 1 * 0 = 0; omega
    | ⟨1, _⟩ => show win1_1.index t (1 : Fin 3) * 128 + 1 * (j 2).val = win1_3.index t (2 : Fin 4) * 128 + 1 * (j 2).val; omega
    | ⟨2, _⟩ => show win1_1.index t (2 : Fin 3) * 128 + 1 * (j 3).val = win1_3.index t (3 : Fin 4) * 128 + 1 * (j 3).val; omega
  · -- the bias is read whole
    show V c main_arg9 (((cfg1.win 2).blk t).view.emb (ix1 (⟨(j 3).val, h3⟩ : Fin 128))) = _
    refine congrArg (V c main_arg9) ?_
    funext d; apply Fin.ext
    match d with
    | ⟨0, _⟩ => show win1_2.index t (0 : Fin 1) * 128 + 1 * (j 3).val = win1_3.index t (3 : Fin 4) * 128 + 1 * (j 3).val; omega

/-- An index of the output array lies in point `t`'s block iff each coordinate lies in the block's range on its axis. -/
theorem mem_blk (t : Fin cfg1.N) (i : S1x512x512x128.Idx) :
    i ∈ ((cfg1.win 3).blk t).view.set
      ↔ ∀ a : Fin 4, win1_3.index t a * S1x128x128x128.size a ≤ (i a).val
          ∧ (i a).val < win1_3.index t a * S1x128x128x128.size a + S1x128x128x128.size a := by
  show i ∈ ((View.whole main_v1).slice (win1_3.rect t)).set ↔ _
  rw [View.set_slice_whole, Rect.mem_set_unit]
  exact Iff.rfl

/-- Every index (0, n, m, z) of the output array lies in the block of the point whose block indices are n / 128 and m / 128. -/
theorem cover (i : S1x512x512x128.Idx) :
    ∃ t : Fin cfg1.N, (cfg1.win 3).flush t = true ∧ i ∈ ((cfg1.win 3).blk t).view.set := by
  have hi0 : (i 0).val < 1 := (i 0).isLt
  have hi1 : (i 1).val < 512 := (i 1).isLt
  have hi2 : (i 2).val < 512 := (i 2).isLt
  have hi3 : (i 3).val < 128 := (i 3).isLt
  obtain ⟨t, ht⟩ := blockOnto ⟨(i 1).val / 128, by omega⟩ ⟨(i 2).val / 128, by omega⟩
  have q0 : win1_3.index t (0 : Fin 4) = 0 := congrFun ht 0
  have q1 : win1_3.index t (1 : Fin 4) = (i 1).val / 128 := congrFun ht 1
  have q2 : win1_3.index t (2 : Fin 4) = (i 2).val / 128 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 128 ≤ (i 1).val ∧ (i 1).val < win1_3.index t (1 : Fin 4) * 128 + 128; omega
  | ⟨2, _⟩ => show win1_3.index t (2 : Fin 4) * 128 ≤ (i 2).val ∧ (i 2).val < win1_3.index t (2 : Fin 4) * 128 + 128; omega
  | ⟨3, _⟩ => show win1_3.index t (3 : Fin 4) * 128 ≤ (i 3).val ∧ (i 3).val < win1_3.index t (3 : Fin 4) * 128 + 128; omega

/-- THE OUTPUT ARRAY after the second region: entry (0, n, m, z) is (pa[0,n,z] + pb[0,m,z]) * 2^-18 + bias[z] of the
    region's three input arrays as it finds them. -/
theorem final3 (c : Dev nD) :
    (dat1 (F := Ideal) V c).arrAt 3 cfg1.N = Cert.Spec.outSplit (V c main_v0_0) (V c main_v0_1) (V c main_arg9) :=
  (dat1 (F := Ideal) V c).arrAt_eq_of_cover 3 (Cert.Spec.outSplit (V c main_v0_0) (V c main_v0_1) (V c main_arg9))
    (fun t _ => flushed_eq V c t) cover

end Cert.KernelIdeal.R1Value

end
-- ==== Proof.KernelValue.lean ====
/-
  The idealized kernel's result array as one function of its argument arrays.

  The first region leaves, in its two output arrays, each normalised half contracted against its half of the
  columns of Wout (the body's term on the whole arrays, read at an index). The second region is entered at
  those contents and leaves in the result array, entry (0, n, m, z), the sum of the two contractions at (n, z)
  and (m, z), scaled by 2^-18, plus the bias at z. That is the split arrangement of the specification, which
  equals the joined arrangement the reference computes.
-/
import proofs.«142635_j89464168775793_1_alg».proof.Proof.KernelRun
import proofs.«142635_j89464168775793_1_alg».proof.Proof.R0Value
import proofs.«142635_j89464168775793_1_alg».proof.Proof.R0PayLow
import proofs.«142635_j89464168775793_1_alg».proof.Proof.R0PayHigh
import proofs.«142635_j89464168775793_1_alg».proof.Proof.R1Value
import proofs.«142635_j89464168775793_1_alg».proof.Proof.Spec

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The two normalised halves, of the arguments as launched. -/
abbrev halfA (c : Dev nD) : Cert.Spec.Half :=
  Cert.Spec.ln (m ((c.tc : Thread nD τ).loc main_arg0)) (m ((c.tc : Thread nD τ).loc main_arg2)) (m ((c.tc : Thread nD τ).loc main_arg3))
    (m ((c.tc : Thread nD τ).loc main_arg6)) (m ((c.tc : Thread nD τ).loc main_arg7))
abbrev halfB (c : Dev nD) : Cert.Spec.Half :=
  Cert.Spec.ln (m ((c.tc : Thread nD τ).loc main_arg1)) (m ((c.tc : Thread nD τ).loc main_arg4)) (m ((c.tc : Thread nD τ).loc main_arg5))
    (m ((c.tc : Thread nD τ).loc main_arg6)) (m ((c.tc : Thread nD τ).loc main_arg7))

/-- The second region finds the first output array of the first region at the first half contracted against the low columns. -/
theorem entry_low (c : Dev nD) :
    V1 m ρ c main_v0_0 = Cert.Spec.projLow (halfA m c) (m ((c.tc : Thread nD τ).loc main_arg8)) :=
  (W1_arr m ρ c 10).trans ((Cert.KernelIdeal.R0Value.final10 (V0 m ρ) c).trans
    (Cert.KernelIdeal.R0PayLow.out0_10_eq _ _ _ _ _ _ _ _ _ _))

/-- and the second at the second half contracted against the high columns; -/
theorem entry_high (c : Dev nD) :
    V1 m ρ c main_v0_1 = Cert.Spec.projHigh (halfB m c) (m ((c.tc : Thread nD τ).loc main_arg8)) :=
  (W1_arr m ρ c 11).trans ((Cert.KernelIdeal.R0Value.final11 (V0 m ρ) c).trans
    (Cert.KernelIdeal.R0PayHigh.out0_11_eq _ _ _ _ _ _ _ _ _ _))

/-- the bias array it finds as launched: the first region only reads it. -/
theorem entry_bias (c : Dev nD) : V1 m ρ c main_arg9 = m ((c.tc : Thread nD τ).loc main_arg9) :=
  (W1_arr m ρ c 9).trans (((dat0 (V0 m ρ) c).arrAt_in 9 rfl _).trans (A_eq0 (V0 m ρ) c 9))

/-- The result array after the run, as the joined arrangement of the argument arrays. -/
theorem result_eq (c : Dev nD) :
    W2 m ρ c (Proc.devRef .tc main_v1)
      = Cert.Spec.outJoined (halfA m c) (halfB m c) (m ((c.tc : Thread nD τ).loc main_arg8)) (m ((c.tc : Thread nD τ).loc main_arg9)) := by
  refine (W2_arr m ρ c 3).trans ((Cert.KernelIdeal.R1Value.final3 (V1 m ρ) c).trans ?_)
  rw [entry_low m ρ c, entry_high m ρ c, entry_bias m ρ c]
  exact Cert.Spec.outSplit_eq_outJoined _ _ _ _

/-- Every weakly fair execution of the idealized kernel terminates, nothing faulting, with the result array at the joined
    arrangement of the argument arrays and the argument arrays as launched. -/
theorem run : θ_run defs (onTc (τ := τ) (main (F := Ideal))) ⟨m, fun _ => 0, ρ⟩ (fun r => ∀ c : Dev nD,
      r.2.mem ((c.tc : Thread nD τ).loc main_v1)
        = Cert.Spec.outJoined (halfA m c) (halfB m c) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩)
    (Cert.KernelIdeal.Named.run_named (F := Ideal) m ρ)

end Cert.KernelIdeal.Result

end
-- ==== Proof.RefHalves.lean ====
/-
  The reference's two normalised halves, read entry by entry.

  Operations %0 … %27 compute, from activations x[1,512,384], weights W[128,384], a bias b[128] and the shared
  gamma[128], beta[128], the layer normalisation of the projected rows:
    pre n h = (sum over s of x[0,n,s] * W[h,s]) + b[h],   mean n = (sum over h of pre n h) / 128,
    dev n h = pre n h - mean n,                            var n = (sum over h of dev n h * dev n h) / 128,
    ln n h  = dev n h * rsqrt (var n + eps) * gamma[h] + beta[h].
  Operations %28 … %55 compute the same from the second activations, weights and bias. Every broadcast reads its
  operand at the coordinates it keeps; a sum over the feature axis starts from the word of +0, the extended real 0.
-/
import proofs.«142635_j89464168775793_1_alg».proof.Proof.Gen.ReferenceIdeal.Read
import proofs.«142635_j89464168775793_1_alg».proof.Proof.Spec
import Idealize.ShloMosaic.Lib.ValueIdx
import Idealize.ShloMosaic.PureOps.Ideal.Laws

noncomputable section

namespace Cert.ReferenceIdeal.RefHalves

open Cert.ReferenceIdeal Cert.ReferenceIdeal.Read Idealize.ShloMosaic Idealize.ShloMosaic.ValueIdx

/-! ### The first half -/

/-- Entry (0, n, h) of the projection plus bias: the sum over s of x[0,n,s] * W[h,s], plus b[h]. -/
theorem pre_a (x0 : (⟨S1x512x384, .f32⟩ : BufTy).Contents (Elt Ideal)) (x2 : (⟨S128x384, .f32⟩ : BufTy).Contents (Elt Ideal)) (x3 : (⟨S128, .f32⟩ : BufTy).Contents (Elt Ideal)) (n : Fin 512) (h : Fin 128) :
    val_main_v3 (F := Ideal) x0 x2 x3 (ix3 0 n h) = Cert.Spec.pre x0 x2 x3 n h := by
  rw [val_main_v3_apply, val_main_v0_apply, val_main_v2_apply, val_main_v1_apply, Ideal.addf_def]
  unfold Cert.Spec.pre
  have el : ∀ s : Fin 384, lidx_main_v0 (ix3 0 n h) s = ix3 0 n s := fun s => funext fun a => Fin.ext (by match a with | ⟨0, _⟩ => rfl | ⟨1, _⟩ => rfl | ⟨2, _⟩ => rfl)
  have er : ∀ s : Fin 384, ridx_main_v0 (ix3 0 n h) s = ix2 h s := fun s => funext fun a => Fin.ext (by match a with | ⟨0, _⟩ => rfl | ⟨1, _⟩ => rfl)
  have eb : idx_main_v1 (idx_main_v2 (ix3 0 n h)) = ix1 h := funext fun a => Fin.ext (by match a with | ⟨0, _⟩ => rfl)
  rw [eb]
  refine congrArg (· + x3 (ix1 h)) (Finset.sum_congr rfl fun s _ => ?_)
  rw [el s, er s]

/-- Entry (0, n, 0) of the row mean: the sum over h of the projected row, divided by 128. The sum starts from the
    word of +0, which is the extended real 0. -/
theorem mean_a (x0 : (⟨S1x512x384, .f32⟩ : BufTy).Contents (Elt Ideal)) (x2 : (⟨S128x384, .f32⟩ : BufTy).Contents (Elt Ideal)) (x3 : (⟨S128, .f32⟩ : BufTy).Contents (Elt Ideal)) (n : Fin 512) :
    val_main_v7 (F := Ideal) x0 x2 x3 (ix3 0 n 0) = Cert.Spec.mean x0 x2 x3 n := by
  rw [val_main_v7_apply, val_main_v5_apply, val_main_v4_apply, val_main_v6_apply, val_main_cst_0_apply, val_main_cst_apply,
    Ideal.hostDivf_def, Ideal.ofBits_def, Ideal.ofBits_def, Ideal.ofBits_zero_f32, zero_add]
  unfold Cert.Spec.mean Cert.Spec.c128
  refine congrArg (fun t => Ideal.div t _) (Finset.sum_congr rfl fun k _ => ?_)
  have e : idx_main_v4 (idx_main_v5 (ix3 0 n 0)) k = ix3 0 n k := funext fun a => Fin.ext (by match a with | ⟨0, _⟩ => rfl | ⟨1, _⟩ => rfl | ⟨2, _⟩ => rfl)
  rw [e]
  exact pre_a x0 x2 x3 n k

/-- Entry (0, n, h) of the deviation from the row mean (the copy that is squared). -/
theorem dev_sq_a (x0 : (⟨S1x512x384, .f32⟩ : BufTy).Contents (Elt Ideal)) (x2 : (⟨S128x384, .f32⟩ : BufTy).Contents (Elt Ideal)) (x3 : (⟨S128, .f32⟩ : BufTy).Contents (Elt Ideal)) (n : Fin 512) (h : Fin 128) :
    val_main_v9 (F := Ideal) x0 x2 x3 (ix3 0 n h) = Cert.Spec.dev x0 x2 x3 n h := by
  have e : idx_main_v8 (ix3 0 n h) = ix3 0 n 0 := funext fun a => Fin.ext (by match a with | ⟨0, _⟩ => rfl | ⟨1, _⟩ => rfl | ⟨2, _⟩ => rfl)
  rw [val_main_v9_apply, val_main_v8_apply, e, mean_a, pre_a, Ideal.subf_def]
  rfl

/-- Entry (0, n, h) of the deviation from the row mean (the copy that is normalised). -/
theorem dev_a (x0 : (⟨S1x512x384, .f32⟩ : BufTy).Contents (Elt Ideal)) (x2 : (⟨S128x384, .f32⟩ : BufTy).Contents (Elt Ideal)) (x3 : (⟨S128, .f32⟩ : BufTy).Contents (Elt Ideal)) (n : Fin 512) (h : Fin 128) :
    val_main_v16 (F := Ideal) x0 x2 x3 (ix3 0 n h) = Cert.Spec.dev x0 x2 x3 n h := by
  have e : idx_main_v15 (ix3 0 n h) = ix3 0 n 0 := funext fun a => Fin.ext (by match a with | ⟨0, _⟩ => rfl | ⟨1, _⟩ => rfl | ⟨2, _⟩ => rfl)
  rw [val_main_v16_apply, val_main_v15_apply, e, mean_a, pre_a, Ideal.subf_def]
  rfl

/-- Entry (0, n, 0) of the row variance: the sum over h of the squared deviations, divided by 128. -/
theorem var_a (x0 : (⟨S1x512x384, .f32⟩ : BufTy).Contents (Elt Ideal)) (x2 : (⟨S128x384, .f32⟩ : BufTy).Contents (Elt Ideal)) (x3 : (⟨S128, .f32⟩ : BufTy).Contents (Elt Ideal)) (n : Fin 512) :
    val_main_v14 (F := Ideal) x0 x2 x3 (ix3 0 n 0) = Cert.Spec.var x0 x2 x3 n := by
  rw [val_main_v14_apply, val_main_v12_apply, val_main_v11_apply, val_main_v13_apply, val_main_cst_2_apply, val_main_cst_1_apply,
    Ideal.hostDivf_def, Ideal.ofBits_def, Ideal.ofBits_def, Ideal.ofBits_zero_f32, zero_add]
  unfold Cert.Spec.var Cert.Spec.c128
  refine congrArg (fun t => Ideal.div t _) (Finset.sum_congr rfl fun k _ => ?_)
  have e : idx_main_v11 (idx_main_v12 (ix3 0 n 0)) k = ix3 0 n k := funext fun a => Fin.ext (by match a with | ⟨0, _⟩ => rfl | ⟨1, _⟩ => rfl | ⟨2, _⟩ => rfl)
  rw [e, val_main_v10_apply, dev_sq_a, Ideal.mulf_def]

/-- Entry (0, n, 0) of the reciprocal square root of the variance plus the offset. -/
theorem rs_a (x0 : (⟨S1x512x384, .f32⟩ : BufTy).Contents (Elt Ideal)) (x2 : (⟨S128x384, .f32⟩ : BufTy).Contents (Elt Ideal)) (x3 : (⟨S128, .f32⟩ : BufTy).Contents (Elt Ideal)) (n : Fin 512) :
    val_main_v19 (F := Ideal) x0 x2 x3 (ix3 0 n 0) = Ideal.rsqrt (Cert.Spec.var x0 x2 x3 n + Cert.Spec.eps) := by
  rw [val_main_v19_apply, val_main_v18_apply, val_main_v17_apply, val_main_cst_3_apply, var_a,
    Ideal.hostUnary_rsqrt_def, Ideal.addf_def, Ideal.ofBits_def]
  rfl

/-- The first normalised half, entry by entry: deviation times reciprocal root, times gamma[h], plus beta[h]. -/
theorem half_a (x0 x1 : (⟨S1x512x384, .f32⟩ : BufTy).Contents (Elt Ideal)) (x2 : (⟨S128x384, .f32⟩ : BufTy).Contents (Elt Ideal)) (x3 : (⟨S128, .f32⟩ : BufTy).Contents (Elt Ideal)) (x4 : (⟨S128x384, .f32⟩ : BufTy).Contents (Elt Ideal)) (x5 x6 x7 : (⟨S128, .f32⟩ : BufTy).Contents (Elt Ideal)) (x8 : (⟨S128x256, .f32⟩ : BufTy).Contents (Elt Ideal)) (x9 : (⟨S128, .f32⟩ : BufTy).Contents (Elt Ideal)) :
    (fun (n : Fin 512) (h : Fin 128) => val_main_v27 (F := Ideal) x0 x2 x3 x6 x7 (ix3 0 n h)) = Cert.Spec.ln x0 x2 x3 x6 x7 := by
  funext n h
  have es : idx_main_v20 (ix3 0 n h) = ix3 0 n 0 := funext fun a => Fin.ext (by match a with | ⟨0, _⟩ => rfl | ⟨1, _⟩ => rfl | ⟨2, _⟩ => rfl)
  have eg : idx_main_v22 (idx_main_v23 (ix3 0 n h)) = ix1 h := funext fun a => Fin.ext (by match a with | ⟨0, _⟩ => rfl)
  have eb : idx_main_v25 (idx_main_v26 (ix3 0 n h)) = ix1 h := funext fun a => Fin.ext (by match a with | ⟨0, _⟩ => rfl)
  rw [val_main_v27_apply, val_main_v24_apply, val_main_v21_apply, val_main_v20_apply, val_main_v23_apply, val_main_v22_apply, val_main_v26_apply, val_main_v25_apply,
    es, eg, eb, dev_a, rs_a, Ideal.addf_def, Ideal.mulf_def, Ideal.mulf_def]
  rfl

/-! ### The second half -/

/-- Entry (0, n, h) of the projection plus bias: the sum over s of x[0,n,s] * W[h,s], plus b[h]. -/
theorem pre_b (x1 : (⟨S1x512x384, .f32⟩ : BufTy).Contents (Elt Ideal)) (x4 : (⟨S128x384, .f32⟩ : BufTy).Contents (Elt Ideal)) (x5 : (⟨S128, .f32⟩ : BufTy).Contents (Elt Ideal)) (n : Fin 512) (h : Fin 128) :
    val_main_v31 (F := Ideal) x1 x4 x5 (ix3 0 n h) = Cert.Spec.pre x1 x4 x5 n h := by
  rw [val_main_v31_apply, val_main_v28_apply, val_main_v30_apply, val_main_v29_apply, Ideal.addf_def]
  unfold Cert.Spec.pre
  have el : ∀ s : Fin 384, lidx_main_v28 (ix3 0 n h) s = ix3 0 n s := fun s => funext fun a => Fin.ext (by match a with | ⟨0, _⟩ => rfl | ⟨1, _⟩ => rfl | ⟨2, _⟩ => rfl)
  have er : ∀ s : Fin 384, ridx_main_v28 (ix3 0 n h) s = ix2 h s := fun s => funext fun a => Fin.ext (by match a with | ⟨0, _⟩ => rfl | ⟨1, _⟩ => rfl)
  have eb : idx_main_v29 (idx_main_v30 (ix3 0 n h)) = ix1 h := funext fun a => Fin.ext (by match a with | ⟨0, _⟩ => rfl)
  rw [eb]
  refine congrArg (· + x5 (ix1 h)) (Finset.sum_congr rfl fun s _ => ?_)
  rw [el s, er s]

/-- Entry (0, n, 0) of the row mean: the sum over h of the projected row, divided by 128. The sum starts from the
    word of +0, which is the extended real 0. -/
theorem mean_b (x1 : (⟨S1x512x384, .f32⟩ : BufTy).Contents (Elt Ideal)) (x4 : (⟨S128x384, .f32⟩ : BufTy).Contents (Elt Ideal)) (x5 : (⟨S128, .f32⟩ : BufTy).Contents (Elt Ideal)) (n : Fin 512) :
    val_main_v35 (F := Ideal) x1 x4 x5 (ix3 0 n 0) = Cert.Spec.mean x1 x4 x5 n := by
  rw [val_main_v35_apply, val_main_v33_apply, val_main_v32_apply, val_main_v34_apply, val_main_cst_5_apply, val_main_cst_4_apply,
    Ideal.hostDivf_def, Ideal.ofBits_def, Ideal.ofBits_def, Ideal.ofBits_zero_f32, zero_add]
  unfold Cert.Spec.mean Cert.Spec.c128
  refine congrArg (fun t => Ideal.div t _) (Finset.sum_congr rfl fun k _ => ?_)
  have e : idx_main_v32 (idx_main_v33 (ix3 0 n 0)) k = ix3 0 n k := funext fun a => Fin.ext (by match a with | ⟨0, _⟩ => rfl | ⟨1, _⟩ => rfl | ⟨2, _⟩ => rfl)
  rw [e]
  exact pre_b x1 x4 x5 n k

/-- Entry (0, n, h) of the deviation from the row mean (the copy that is squared). -/
theorem dev_sq_b (x1 : (⟨S1x512x384, .f32⟩ : BufTy).Contents (Elt Ideal)) (x4 : (⟨S128x384, .f32⟩ : BufTy).Contents (Elt Ideal)) (x5 : (⟨S128, .f32⟩ : BufTy).Contents (Elt Ideal)) (n : Fin 512) (h : Fin 128) :
    val_main_v37 (F := Ideal) x1 x4 x5 (ix3 0 n h) = Cert.Spec.dev x1 x4 x5 n h := by
  have e : idx_main_v36 (ix3 0 n h) = ix3 0 n 0 := funext fun a => Fin.ext (by match a with | ⟨0, _⟩ => rfl | ⟨1, _⟩ => rfl | ⟨2, _⟩ => rfl)
  rw [val_main_v37_apply, val_main_v36_apply, e, mean_b, pre_b, Ideal.subf_def]
  rfl

/-- Entry (0, n, h) of the deviation from the row mean (the copy that is normalised). -/
theorem dev_b (x1 : (⟨S1x512x384, .f32⟩ : BufTy).Contents (Elt Ideal)) (x4 : (⟨S128x384, .f32⟩ : BufTy).Contents (Elt Ideal)) (x5 : (⟨S128, .f32⟩ : BufTy).Contents (Elt Ideal)) (n : Fin 512) (h : Fin 128) :
    val_main_v44 (F := Ideal) x1 x4 x5 (ix3 0 n h) = Cert.Spec.dev x1 x4 x5 n h := by
  have e : idx_main_v43 (ix3 0 n h) = ix3 0 n 0 := funext fun a => Fin.ext (by match a with | ⟨0, _⟩ => rfl | ⟨1, _⟩ => rfl | ⟨2, _⟩ => rfl)
  rw [val_main_v44_apply, val_main_v43_apply, e, mean_b, pre_b, Ideal.subf_def]
  rfl

/-- Entry (0, n, 0) of the row variance: the sum over h of the squared deviations, divided by 128. -/
theorem var_b (x1 : (⟨S1x512x384, .f32⟩ : BufTy).Contents (Elt Ideal)) (x4 : (⟨S128x384, .f32⟩ : BufTy).Contents (Elt Ideal)) (x5 : (⟨S128, .f32⟩ : BufTy).Contents (Elt Ideal)) (n : Fin 512) :
    val_main_v42 (F := Ideal) x1 x4 x5 (ix3 0 n 0) = Cert.Spec.var x1 x4 x5 n := by
  rw [val_main_v42_apply, val_main_v40_apply, val_main_v39_apply, val_main_v41_apply, val_main_cst_7_apply, val_main_cst_6_apply,
    Ideal.hostDivf_def, Ideal.ofBits_def, Ideal.ofBits_def, Ideal.ofBits_zero_f32, zero_add]
  unfold Cert.Spec.var Cert.Spec.c128
  refine congrArg (fun t => Ideal.div t _) (Finset.sum_congr rfl fun k _ => ?_)
  have e : idx_main_v39 (idx_main_v40 (ix3 0 n 0)) k = ix3 0 n k := funext fun a => Fin.ext (by match a with | ⟨0, _⟩ => rfl | ⟨1, _⟩ => rfl | ⟨2, _⟩ => rfl)
  rw [e, val_main_v38_apply, dev_sq_b, Ideal.mulf_def]

/-- Entry (0, n, 0) of the reciprocal square root of the variance plus the offset. -/
theorem rs_b (x1 : (⟨S1x512x384, .f32⟩ : BufTy).Contents (Elt Ideal)) (x4 : (⟨S128x384, .f32⟩ : BufTy).Contents (Elt Ideal)) (x5 : (⟨S128, .f32⟩ : BufTy).Contents (Elt Ideal)) (n : Fin 512) :
    val_main_v47 (F := Ideal) x1 x4 x5 (ix3 0 n 0) = Ideal.rsqrt (Cert.Spec.var x1 x4 x5 n + Cert.Spec.eps) := by
  rw [val_main_v47_apply, val_main_v46_apply, val_main_v45_apply, val_main_cst_8_apply, var_b,
    Ideal.hostUnary_rsqrt_def, Ideal.addf_def, Ideal.ofBits_def]
  rfl

/-- The second normalised half, entry by entry: deviation times reciprocal root, times gamma[h], plus beta[h]. -/
theorem half_b (x0 x1 : (⟨S1x512x384, .f32⟩ : BufTy).Contents (Elt Ideal)) (x2 : (⟨S128x384, .f32⟩ : BufTy).Contents (Elt Ideal)) (x3 : (⟨S128, .f32⟩ : BufTy).Contents (Elt Ideal)) (x4 : (⟨S128x384, .f32⟩ : BufTy).Contents (Elt Ideal)) (x5 x6 x7 : (⟨S128, .f32⟩ : BufTy).Contents (Elt Ideal)) (x8 : (⟨S128x256, .f32⟩ : BufTy).Contents (Elt Ideal)) (x9 : (⟨S128, .f32⟩ : BufTy).Contents (Elt Ideal)) :
    (fun (n : Fin 512) (h : Fin 128) => val_main_v55 (F := Ideal) x1 x4 x5 x6 x7 (ix3 0 n h)) = Cert.Spec.ln x1 x4 x5 x6 x7 := by
  funext n h
  have es : idx_main_v48 (ix3 0 n h) = ix3 0 n 0 := funext fun a => Fin.ext (by match a with | ⟨0, _⟩ => rfl | ⟨1, _⟩ => rfl | ⟨2, _⟩ => rfl)
  have eg : idx_main_v50 (idx_main_v51 (ix3 0 n h)) = ix1 h := funext fun a => Fin.ext (by match a with | ⟨0, _⟩ => rfl)
  have eb : idx_main_v53 (idx_main_v54 (ix3 0 n h)) = ix1 h := funext fun a => Fin.ext (by match a with | ⟨0, _⟩ => rfl)
  rw [val_main_v55_apply, val_main_v52_apply, val_main_v49_apply, val_main_v48_apply, val_main_v51_apply, val_main_v50_apply, val_main_v54_apply, val_main_v53_apply,
    es, eg, eb, dev_b, rs_b, Ideal.addf_def, Ideal.mulf_def, Ideal.mulf_def]
  rfl

end Cert.ReferenceIdeal.RefHalves

end
-- ==== Proof.RefJoin.lean ====
/-
  The reference's last operations, read entry by entry.

  From the two normalised halves A, B (both [1,512,128]) the reference forms
    J[0,n,m,k] = A[0,n,k]        for k < 128
               = B[0,m,k-128]    for 128 ≤ k < 256
  (A repeated along axis 2, B repeated along axis 1, joined along axis 3), divides every entry by 2^18,
  contracts axis 3 against axis 1 of Wout[128,256] and adds the bias repeated over the leading axes:
    out[0,n,m,z] = (sum over k < 256 of (J[0,n,m,k] / 2^18) * Wout[z,k]) + bias[z].
  This is `Cert.Spec.outJoined` of the halves read as rows by features.
-/
import proofs.«142635_j89464168775793_1_alg».proof.Proof.Gen.ReferenceIdeal.Read
import proofs.«142635_j89464168775793_1_alg».proof.Proof.Spec
import Idealize.ShloMosaic.Lib.Pipeline.Value
import Idealize.ShloMosaic.Lib.ValueIdx

noncomputable section

namespace Cert.ReferenceIdeal.RefJoin
open Cert.ReferenceIdeal Cert.ReferenceIdeal.Gen Cert.ReferenceIdeal.Read Idealize.ShloMosaic Idealize.ShloMosaic.ValueIdx

/-- Two [1,512,512,128] arrays joined along the last axis, at an index whose last coordinate is below 128:
    the first array at the same coordinates. -/
theorem concat_low (ya yb : (⟨S1x512x512x128, .f32⟩ : BufTy).Contents (Elt Ideal)) (j : S1x512x512x256.Idx)
    (h : (j 3).val < 128) :
    concatenate S1x512x512x256 3 [⟨S1x512x512x128, ya⟩, ⟨S1x512x512x128, yb⟩]
        concatenates_S1x512x512x128_S1x512x512x128_S1x512x512x256_d3 j
      = ya (ix4 ⟨(j 0).val, (j 0).isLt⟩ ⟨(j 1).val, (j 1).isLt⟩ ⟨(j 2).val, (j 2).isLt⟩ ⟨(j 3).val, h⟩) :=
  concatenate_pair_apply_left 3 ya yb _ j rfl _ (fun b => by
    match b with
    | ⟨0, _⟩ => rfl
    | ⟨1, _⟩ => rfl
    | ⟨2, _⟩ => rfl
    | ⟨3, _⟩ => rfl)

/-- The same join at an index whose last coordinate is 128 or more: the second array at the same leading
    coordinates, its last coordinate 128 less. -/
theorem concat_high (ya yb : (⟨S1x512x512x128, .f32⟩ : BufTy).Contents (Elt Ideal)) (j : S1x512x512x256.Idx)
    (h : ¬ (j 3).val < 128) :
    concatenate S1x512x512x256 3 [⟨S1x512x512x128, ya⟩, ⟨S1x512x512x128, yb⟩]
        concatenates_S1x512x512x128_S1x512x512x128_S1x512x512x256_d3 j
      = yb (ix4 ⟨(j 0).val, (j 0).isLt⟩ ⟨(j 1).val, (j 1).isLt⟩ ⟨(j 2).val, (j 2).isLt⟩
          ⟨(j 3).val - 128, by have := (j 3).isLt; simp at this; omega⟩) :=
  concatenate_pair_apply_right 3 ya yb _ j rfl rfl _
    (fun b hb => by
      match b with
      | ⟨0, _⟩ => rfl
      | ⟨1, _⟩ => rfl
      | ⟨2, _⟩ => rfl
      | ⟨3, _⟩ => exact absurd rfl hb)
    (by show (j 3).val - 128 + 128 = (j 3).val; omega)

/-- Entry (0, n, m, k) of the joined array is feature k of row n of the first half when k < 128, and feature
    k - 128 of row m of the second half otherwise: each half was repeated along the axis it does not depend on. -/
theorem joined_entry (x0 x1 : (⟨S1x512x384, .f32⟩ : BufTy).Contents (Elt Ideal)) (x2 : (⟨S128x384, .f32⟩ : BufTy).Contents (Elt Ideal)) (x3 : (⟨S128, .f32⟩ : BufTy).Contents (Elt Ideal)) (x4 : (⟨S128x384, .f32⟩ : BufTy).Contents (Elt Ideal)) (x5 x6 x7 : (⟨S128, .f32⟩ : BufTy).Contents (Elt Ideal))
    (i : S1x512x512x128.Idx) (k : Fin 256) :
    val_main_v60 (F := Ideal) x0 x1 x2 x3 x4 x5 x6 x7 (lidx_main_v63 i k)
      = Cert.Spec.joined (fun n h => val_main_v27 (F := Ideal) x0 x2 x3 x6 x7 (ix3 0 n h))
          (fun m h => val_main_v55 (F := Ideal) x1 x4 x5 x6 x7 (ix3 0 m h))
          ⟨(i 1).val, (i 1).isLt⟩ ⟨(i 2).val, (i 2).isLt⟩ k := by
  unfold Cert.Spec.joined
  by_cases h : k.val < 128
  · -- the low features: the first half, repeated along axis 2
    rw [dif_pos h]
    have e : val_main_v60 (F := Ideal) x0 x1 x2 x3 x4 x5 x6 x7 (lidx_main_v63 i k)
        = val_main_v57 (F := Ideal) x0 x2 x3 x6 x7
            (ix4 ⟨((lidx_main_v63 i k) 0).val, ((lidx_main_v63 i k) 0).isLt⟩ ⟨((lidx_main_v63 i k) 1).val, ((lidx_main_v63 i k) 1).isLt⟩
              ⟨((lidx_main_v63 i k) 2).val, ((lidx_main_v63 i k) 2).isLt⟩ ⟨((lidx_main_v63 i k) 3).val, h⟩) := by
      unfold val_main_v60
      generalize val_main_v57 (F := Ideal) x0 x2 x3 x6 x7 = ya
      generalize val_main_v59 (F := Ideal) x1 x4 x5 x6 x7 = yb
      exact concat_low ya yb (lidx_main_v63 i k) h
    rw [e, val_main_v57_apply, val_main_v56_apply]
    refine congrArg (val_main_v27 (F := Ideal) x0 x2 x3 x6 x7) ?_
    funext a
    match a with
    | ⟨0, _⟩ => rfl
    | ⟨1, _⟩ => rfl
    | ⟨2, _⟩ => rfl
  · -- the high features: the second half, repeated along axis 1
    rw [dif_neg h]
    have e : val_main_v60 (F := Ideal) x0 x1 x2 x3 x4 x5 x6 x7 (lidx_main_v63 i k)
        = val_main_v59 (F := Ideal) x1 x4 x5 x6 x7
            (ix4 ⟨((lidx_main_v63 i k) 0).val, ((lidx_main_v63 i k) 0).isLt⟩ ⟨((lidx_main_v63 i k) 1).val, ((lidx_main_v63 i k) 1).isLt⟩
              ⟨((lidx_main_v63 i k) 2).val, ((lidx_main_v63 i k) 2).isLt⟩ ⟨((lidx_main_v63 i k) 3).val - 128, by have := k.isLt; show k.val - 128 < 128; omega⟩) := by
      unfold val_main_v60
      generalize val_main_v57 (F := Ideal) x0 x2 x3 x6 x7 = ya
      generalize val_main_v59 (F := Ideal) x1 x4 x5 x6 x7 = yb
      exact concat_high ya yb (lidx_main_v63 i k) h
    rw [e, val_main_v59_apply, val_main_v58_apply]
    refine congrArg (val_main_v55 (F := Ideal) x1 x4 x5 x6 x7) ?_
    funext a
    match a with
    | ⟨0, _⟩ => rfl
    | ⟨1, _⟩ => rfl
    | ⟨2, _⟩ => rfl

/-- The reference's result is the joined formula of the two normalised halves: entry (0, n, m, z) is the sum
    over k < 256 of (joined n m k / 2^18) * Wout[z, k], plus bias[z]. -/
theorem result_joined (x0 x1 : (⟨S1x512x384, .f32⟩ : BufTy).Contents (Elt Ideal)) (x2 : (⟨S128x384, .f32⟩ : BufTy).Contents (Elt Ideal)) (x3 : (⟨S128, .f32⟩ : BufTy).Contents (Elt Ideal)) (x4 : (⟨S128x384, .f32⟩ : BufTy).Contents (Elt Ideal)) (x5 x6 x7 : (⟨S128, .f32⟩ : BufTy).Contents (Elt Ideal)) (x8 : (⟨S128x256, .f32⟩ : BufTy).Contents (Elt Ideal)) (x9 : (⟨S128, .f32⟩ : BufTy).Contents (Elt Ideal)) :
    val_main_v66 (F := Ideal) x0 x1 x2 x3 x4 x5 x6 x7 x8 x9
      = Cert.Spec.outJoined (fun n h => val_main_v27 (F := Ideal) x0 x2 x3 x6 x7 (ix3 0 n h)) (fun m h => val_main_v55 (F := Ideal) x1 x4 x5 x6 x7 (ix3 0 m h)) x8 x9 := by
  funext i
  rw [val_main_v66_apply, val_main_v63_apply, val_main_v65_apply, val_main_v64_apply]
  unfold Cert.Spec.outJoined
  -- the bias, repeated over the three leading axes, is read at the last coordinate
  have eb : idx_main_v64 (idx_main_v65 i) = ix1 ⟨(i 3).val, (i 3).isLt⟩ := by
    funext a
    match a with
    | ⟨0, _⟩ => rfl
  rw [eb]
  refine congrArg₂ (· + ·) (Finset.sum_congr rfl fun k _ => ?_) rfl
  -- the right factor of the contraction is Wout[z, k]
  have er : ridx_main_v63 i k = ix2 ⟨(i 3).val, (i 3).isLt⟩ k := by
    funext a
    match a with
    | ⟨0, _⟩ => rfl
    | ⟨1, _⟩ => rfl
  -- the left factor is the joined entry over the word that denotes 2^18
  rw [er, val_main_v62_apply, val_main_v61_apply, joined_entry]
  rfl

end Cert.ReferenceIdeal.RefJoin

end
-- ==== Proof.RefValue.lean ====
/-
  The idealized reference's result as the joined arrangement of the specification: the last operations join the two
  normalised halves, divide by 2^18, contract once against the whole of Wout and add the bias; each half is the
  layer normalisation of its projected rows.
-/
import proofs.«142635_j89464168775793_1_alg».proof.Proof.Gen.ReferenceIdeal.Read
import proofs.«142635_j89464168775793_1_alg».proof.Proof.RefHalves
import proofs.«142635_j89464168775793_1_alg».proof.Proof.RefJoin
import proofs.«142635_j89464168775793_1_alg».proof.Proof.Spec

noncomputable section

namespace Cert.ReferenceIdeal.Result

open Cert.ReferenceIdeal Cert.ReferenceIdeal.Gen Idealize.ShloMosaic Idealize.ShloMosaic.TcCoe Idealize.SL.Sem

/-- The reference run's result term, at the ideal values, is the joined arrangement of its argument arrays. -/
theorem result_eq (m : (ℓ : Loc nD τ sig) → Buf (Elt Ideal) ℓ) (c : Dev nD) :
    Cert.ReferenceIdeal.Value.res_main_v66 m c
      = Cert.Spec.outJoined
          (Cert.Spec.ln (m ((c.tc : Thread nD τ).loc main_arg0)) (m ((c.tc : Thread nD τ).loc main_arg2)) (m ((c.tc : Thread nD τ).loc main_arg3))
            (m ((c.tc : Thread nD τ).loc main_arg6)) (m ((c.tc : Thread nD τ).loc main_arg7)))
          (Cert.Spec.ln (m ((c.tc : Thread nD τ).loc main_arg1)) (m ((c.tc : Thread nD τ).loc main_arg4)) (m ((c.tc : Thread nD τ).loc main_arg5))
            (m ((c.tc : Thread nD τ).loc main_arg6)) (m ((c.tc : Thread nD τ).loc main_arg7)))
          (m ((c.tc : Thread nD τ).loc main_arg8)) (m ((c.tc : Thread nD τ).loc main_arg9)) := by
  rw [Cert.ReferenceIdeal.Read.val_main_v66_eq,
    Cert.ReferenceIdeal.RefJoin.result_joined (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)),
    Cert.ReferenceIdeal.RefHalves.half_a (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)),
    Cert.ReferenceIdeal.RefHalves.half_b (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))]

end Cert.ReferenceIdeal.Result

end
-- ==== Proof.lean ====
/-
  The certificate of a pairwise "outer concatenation" layer against its jnp reference, over the extended reals.

  Both programs project two activation arrays s1, s2 [1,512,384] through W1, W2 [128,384] with biases, and layer-normalise
  each projected row (mean and variance over its 128 features, the offset the f32 nearest 1e-5, gamma and beta): two
  halves a[n,h], b[m,h]. The reference joins a[n,:] and b[m,:] into one vector of 256 features for every pair (n, m),
  divides it by 2^18, contracts it against Wout [128,256] and adds the bias bout. The kernel uses that this is linear in the
  joined vector: a first call contracts a against the low 128 columns of Wout and b against the high 128 columns, and a
  second call, tiled 4 by 4 over the pairs, writes (pa[n,z] + pb[m,z]) * 2^-18 + bout[z].

  At the ideal values the two agree on EVERY extended real, with no use of the inputs' finiteness: the division by the
  real 2^18 is the product with the real 2^-18, a product with a nonnegative real distributes over sums of extended
  reals, and the sum over 256 features splits into the sums over the two halves (Proof/Spec.lean,
  `outSplit_eq_outJoined`). What each program's result array holds is read off its run: the kernel's two regions one after
  the other (Proof/R0Value.lean, Proof/R0PayLow.lean, Proof/R0PayHigh.lean, Proof/R1Value.lean, joined in
  Proof/KernelValue.lean over the run with the result array named, Proof/KernelRun.lean), the reference's operations one
  at a time (Proof/RefHalves.lean, Proof/RefJoin.lean, joined in Proof/RefValue.lean). The idealization rewrote no
  operation, so its claim is trivial; the frames are the generated ones.
-/
import proofs.«142635_j89464168775793_1_alg».proof.Defs
import proofs.«142635_j89464168775793_1_alg».proof.Proof.Gen.Kernel
import proofs.«142635_j89464168775793_1_alg».proof.Proof.Gen.Kernel.Frame
import proofs.«142635_j89464168775793_1_alg».proof.Proof.Gen.KernelIdeal
import proofs.«142635_j89464168775793_1_alg».proof.Proof.Gen.KernelIdeal.Frame
import proofs.«142635_j89464168775793_1_alg».proof.Proof.Gen.ReferenceIdeal
import proofs.«142635_j89464168775793_1_alg».proof.Proof.Gen.ReferenceIdeal.Run
import proofs.«142635_j89464168775793_1_alg».proof.Proof.Gen.Pre_finite_inputs
import proofs.«142635_j89464168775793_1_alg».proof.Proof.KernelValue
import proofs.«142635_j89464168775793_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the joined arrangement of the argument arrays, which agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Result.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
